-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S50000 : Shape := ⟨1, ![50000]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S50000 : S_.BroadcastsInDim S50000 (![] : Fin 0 → Fin S50000.rank)
  reducesTo_S50000_S_d0 : S50000.ReducesTo [0] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg10 : IVec S800000 32) (main_v50 : IVec S_ 1) : IVec S_ 1 :=
  let main_c_19 : IVec S_ 32 := constantI S_ 32 0#32
  let main_v51 : IVec S800000 32 := broadcastInDim S800000 ![] bcast_S_S800000 main_c_19
  let main_v52 : IVec S800000 1 := cmpi .sge main_arg10 main_v51
  let main_c_20 : IVec S_ 32 := constantI S_ 32 50000#32
  let main_v53 : IVec S800000 32 := broadcastInDim S800000 ![] bcast_S_S800000 main_c_20
  let main_v54 : IVec S800000 1 := cmpi .slt main_arg10 main_v53
  let main_v55 : IVec S800000 1 := andi main_v52 main_v54
  let main_c_21 : IVec S_ 1 := constantI S_ 1 1#1
  let main_v56 : IVec S_ 1 := (fun x v => Host.reduce IntOp.andi x v reducesTo_S800000_S_d0 h_S_) main_v55 main_c_21
  let main_v57 : IVec S_ 1 := andi main_v50 main_v56
  main_v57

def fn_part2 {F : FTy → Type} [FloatOps F] (main_arg7 : FVec F S64x64 .f32) (main_arg8 : FVec F S64 .f32) (main_arg9 : IVec S50000 32) (main_arg10 : IVec S800000 32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_c_16 : IVec S_ 32 := constantI S_ 32 0#32
  let main_v44 : IVec S50000 32 := broadcastInDim S50000 ![] bcast_S_S50000 main_c_16
  let main_v45 : IVec S50000 1 := cmpi .sge main_arg9 main_v44
  let main_c_17 : IVec S_ 32 := constantI S_ 32 50000#32
  let main_v46 : IVec S50000 32 := broadcastInDim S50000 ![] bcast_S_S50000 main_c_17
  let main_v47 : IVec S50000 1 := cmpi .slt main_arg9 main_v46
  let main_v48 : IVec S50000 1 := andi main_v45 main_v47
  let main_c_18 : IVec S_ 1 := constantI S_ 1 1#1
  let main_v49 : IVec S_ 1 := (fun x v => Host.reduce IntOp.andi x v reducesTo_S50000_S_d0 h_S_) main_v48 main_c_18
  let main_v50 : IVec S_ 1 := andi main_v43 main_v49
  fn_part3 (F := F) main_arg10 main_v50

def fn_part1 {F : FTy → Type} [FloatOps F] (main_arg4 : FVec F S64x64 .f32) (main_arg5 : FVec F S64x64 .f32) (main_arg6 : FVec F S64 .f32) (main_arg7 : FVec F S64x64 .f32) (main_arg8 : FVec F S64 .f32) (main_arg9 : IVec S50000 32) (main_arg10 : IVec S800000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x64 .f32) (main_arg1 : FVec F S64x64 .f32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64 .f32) (main_arg9 : IVec S50000 32) (main_arg10 : IVec S800000 32) (main_arg11 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_v13 main_v16
-- ==== Kernel.lean ====
abbrev S50000x64 : Shape := ⟨2, ![50000, 64]⟩
abbrev S64x64 : Shape := ⟨2, ![64, 64]⟩
abbrev S64 : Shape := ⟨1, ![64]⟩
abbrev S50000 : Shape := ⟨1, ![50000]⟩
abbrev S800000 : Shape := ⟨1, ![800000]⟩
abbrev S_ : Shape := ⟨0, ![]⟩
abbrev S50000x1 : Shape := ⟨2, ![50000, 1]⟩
abbrev S1 : Shape := ⟨1, ![1]⟩
abbrev S1x1 : Shape := ⟨2, ![1, 1]⟩
abbrev S800000x1 : Shape := ⟨2, ![800000, 1]⟩
abbrev S800000x64 : Shape := ⟨2, ![800000, 64]⟩
abbrev S128x64 : Shape := ⟨2, ![128, 64]⟩
abbrev S5000x64 : Shape := ⟨2, ![5000, 64]⟩
abbrev S5000x1 : Shape := ⟨2, ![5000, 1]⟩
abbrev S5000x128 : Shape := ⟨2, ![5000, 128]⟩
abbrev S1x64 : Shape := ⟨2, ![1, 64]⟩

abbrev nBuf : Space → Nat
  | .hbm => 107
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S50000, .i32⟩
  | .hbm, ⟨10, _⟩ => ⟨S800000, .i32⟩
  | .hbm, ⟨11, _⟩ => ⟨S800000, .i32⟩
  | .hbm, ⟨12, _⟩ => ⟨S_, .i32⟩
  | .hbm, ⟨13, _⟩ => ⟨S50000, .i32⟩
  | .hbm, ⟨14, _⟩ => ⟨S50000, .i1⟩
  | .hbm, ⟨15, _⟩ => ⟨S_, .i32⟩
  | .hbm, ⟨16, _⟩ => ⟨S50000, .i32⟩
  | .hbm, ⟨17, _⟩ => ⟨S50000, .i32⟩
  | .hbm, ⟨18, _⟩ => ⟨S50000, .i32⟩
  | .hbm, ⟨19, _⟩ => ⟨S50000x1, .i32⟩
  | .hbm, ⟨20, _⟩ => ⟨S1, .i32⟩
  | .hbm, ⟨21, _⟩ => ⟨S_, .i32⟩
  | .hbm, ⟨22, _⟩ => ⟨S50000x1, .i32⟩
  | .hbm, ⟨23, _⟩ => ⟨S50000x1, .i1⟩
  | .hbm, ⟨24, _⟩ => ⟨S1x1, .i32⟩
  | .hbm, ⟨25, _⟩ => ⟨S50000x1, .i32⟩
  | .hbm, ⟨26, _⟩ => ⟨S50000x1, .i1⟩
  | .hbm, ⟨27, _⟩ => ⟨S50000x1, .i1⟩
  | .hbm, ⟨28, _⟩ => ⟨S_, .i1⟩
  | .hbm, ⟨29, _⟩ => ⟨S50000, .i1⟩
  | .hbm, ⟨30, _⟩ => ⟨S50000x64, .f32⟩
  | .hbm, ⟨31, _⟩ => ⟨S50000x64, .i1⟩
  | .hbm, ⟨32, _⟩ => ⟨S_, .f32⟩
  | .hbm, ⟨33, _⟩ => ⟨S50000x64, .f32⟩
  | .hbm, ⟨34, _⟩ => ⟨S50000x64, .f32⟩
  | .hbm, ⟨35, _⟩ => ⟨S_, .f32⟩
  | .hbm, ⟨36, _⟩ => ⟨S800000, .f32⟩
  | .hbm, ⟨37, _⟩ => ⟨S_, .f32⟩
  | .hbm, ⟨38, _⟩ => ⟨S50000, .f32⟩
  | .hbm, ⟨39, _⟩ => ⟨S800000x1, .i32⟩
  | .hbm, ⟨40, _⟩ => ⟨S50000, .f32⟩
  | .hbm, ⟨41, _⟩ => ⟨S_, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000x1, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S1, .i32⟩
  | .hbm, ⟨58, _⟩ => ⟨S_, .i32⟩
  | .hbm, ⟨59, _⟩ => ⟨S800000x1, .i32⟩
  | .hbm, ⟨60, _⟩ => ⟨S800000x1, .i1⟩
  | .hbm, ⟨61, _⟩ => ⟨S1x1, .i32⟩
  | .hbm, ⟨62, _⟩ => ⟨S800000x1, .i32⟩
  | .hbm, ⟨63, _⟩ => ⟨S800000x1, .i1⟩
  | .hbm, ⟨64, _⟩ => ⟨S800000x1, .i1⟩
  | .hbm, ⟨65, _⟩ => ⟨S_, .i1⟩
  | .hbm, ⟨66, _⟩ => ⟨S800000, .i1⟩
  | .hbm, ⟨67, _⟩ => ⟨S800000x64, .f32⟩
  | .hbm, ⟨68, _⟩ => ⟨S800000x64, .i1⟩
  | .hbm, ⟨69, _⟩ => ⟨S_, .f32⟩
  | .hbm, ⟨70, _⟩ => ⟨S800000x64, .f32⟩
  | .hbm, ⟨71, _⟩ => ⟨S800000x64, .f32⟩
  | .hbm, ⟨72, _⟩ => ⟨S_, .f32⟩
  | .hbm, ⟨73, _⟩ => ⟨S50000x64, .f32⟩
  | .hbm, ⟨74, _⟩ => ⟨S800000x1, .i32⟩
  | .hbm, ⟨75, _⟩ => ⟨S50000x64, .f32⟩
  | .hbm, ⟨76, _⟩ => ⟨S128x64, .f32⟩
  | .hbm, ⟨77, _⟩ => ⟨S50000x64, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S1, .i32⟩
  | .hbm, ⟨87, _⟩ => ⟨S_, .i32⟩
  | .hbm, ⟨88, _⟩ => ⟨S800000x1, .i32⟩
  | .hbm, ⟨89, _⟩ => ⟨S800000x1, .i1⟩
  | .hbm, ⟨90, _⟩ => ⟨S1x1, .i32⟩
  | .hbm, ⟨91, _⟩ => ⟨S800000x1, .i32⟩
  | .hbm, ⟨92, _⟩ => ⟨S800000x1, .i1⟩
  | .hbm, ⟨93, _⟩ => ⟨S800000x1, .i1⟩
  | .hbm, ⟨94, _⟩ => ⟨S_, .i1⟩
  | .hbm, ⟨95, _⟩ => ⟨S800000, .i1⟩
  | .hbm, ⟨96, _⟩ => ⟨S800000x64, .f32⟩
  | .hbm, ⟨97, _⟩ => ⟨S800000x64, .i1⟩
  | .hbm, ⟨98, _⟩ => ⟨S_, .f32⟩
  | .hbm, ⟨99, _⟩ => ⟨S800000x64, .f32⟩
  | .hbm, ⟨100, _⟩ => ⟨S800000x64, .f32⟩
  | .hbm, ⟨101, _⟩ => ⟨S_, .f32⟩
  | .hbm, ⟨102, _⟩ => ⟨S50000x64, .f32⟩
  | .hbm, ⟨103, _⟩ => ⟨S800000x1, .i32⟩
  | .hbm, ⟨104, _⟩ => ⟨S50000x64, .f32⟩
  | .hbm, ⟨105, _⟩ => ⟨S128x64, .f32⟩
  | .hbm, ⟨106, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S128x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x1, .f32⟩
  | .local _ .vmem, ⟨15, _⟩ => ⟨S5000x1, .f32⟩
  | .local _ .vmem, ⟨16, _⟩ => ⟨S128x64, .f32⟩
  | .local _ .vmem, ⟨17, _⟩ => ⟨S64, .f32⟩
  | .local _ .vmem, ⟨18, _⟩ => ⟨S64x64, .f32⟩
  | .local _ .vmem, ⟨19, _⟩ => ⟨S64, .f32⟩
  | .local _ .vmem, ⟨20, _⟩ => ⟨S5000x64, .f32⟩
  | .local _ .vmem, ⟨21, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_cst : Ref sig .tc := ⟨.hbm, 35, rfl⟩
abbrev main_v1 : Ref sig .tc := ⟨.hbm, 36, rfl⟩
abbrev main_cst_0 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_cst_1 : Ref sig .tc := ⟨.hbm, 41, rfl⟩
abbrev main_call1_v0 : Ref sig .tc := ⟨.hbm, 42, rfl⟩
abbrev main_call1_v1 : Ref sig .tc := ⟨.hbm, 43, rfl⟩
abbrev main_v5 : Ref sig .tc := ⟨.hbm, 44, rfl⟩
abbrev main_cst_2 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_call2_c : Ref sig .tc := ⟨.hbm, 49, rfl⟩
abbrev main_call2_v0 : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_c_1 : Ref sig .tc := ⟨.hbm, 57, rfl⟩
abbrev main_call2_c_2 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_3 : Ref sig .tc := ⟨.hbm, 65, rfl⟩
abbrev main_call2_v12 : Ref sig .tc := ⟨.hbm, 66, rfl⟩
abbrev main_call2_v13 : Ref sig .tc := ⟨.hbm, 67, rfl⟩
abbrev main_call2_v14 : Ref sig .tc := ⟨.hbm, 68, rfl⟩
abbrev main_call2_cst : Ref sig .tc := ⟨.hbm, 69, rfl⟩
abbrev main_call2_v15 : Ref sig .tc := ⟨.hbm, 70, rfl⟩
abbrev main_v9 : Ref sig .tc := ⟨.hbm, 71, rfl⟩
abbrev main_cst_3 : Ref sig .tc := ⟨.hbm, 72, rfl⟩
abbrev main_v10 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_call3_cst : Ref sig .tc := ⟨.hbm, 98, rfl⟩
abbrev main_call3_v15 : Ref sig .tc := ⟨.hbm, 99, rfl⟩
abbrev main_v15 : Ref sig .tc := ⟨.hbm, 100, rfl⟩
abbrev main_cst_4 : Ref sig .tc := ⟨.hbm, 101, rfl⟩
abbrev main_v16 : Ref sig .tc := ⟨.hbm, 102, rfl⟩
abbrev main_v17 : Ref sig .tc := ⟨.hbm, 103, rfl⟩
abbrev main_v18 : Ref sig .tc := ⟨.hbm, 104, rfl⟩
abbrev main_v19 : Ref sig .tc := ⟨.hbm, 105, rfl⟩
abbrev main_v20 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  h_S_ : 0 < S_.numel
  bcast_S50000_S50000x64_0 : S50000.BroadcastsInDim S50000x64 (![0] : Fin 1 → Fin S50000x64.rank)
  bcast_S_S50000x64 : S_.BroadcastsInDim S50000x64 (![] : Fin 0 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1x1_S800000x1_0_1 : S1x1.BroadcastsInDim S800000x1 (![0, 1] : Fin 2 → Fin S800000x1.rank)
  reducesTo_S800000x1_S800000_d1 : S800000x1.ReducesTo [1] S800000
  bcast_S800000_S800000x64_0 : S800000.BroadcastsInDim S800000x64 (![0] : Fin 1 → Fin S800000x64.rank)
  bcast_S_S800000x64 : S_.BroadcastsInDim S800000x64 (![] : Fin 0 → Fin S800000x64.rank)
  concatenates_S64x64_S64x64_S128x64_d0 : Shape.Concatenates [S64x64, S64x64] S128x64 0
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  concatenates_S5000x64_S5000x64_S5000x128_d1 : Shape.Concatenates [S5000x64, S5000x64] S5000x128 1
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  gather_S50000x64_S50000x1_S50000x64_1_0_n_n_0_1_164_wf : GatherDims.WF S50000x64 S50000x1 S50000x64 [1] [0] [] [0] [] 1 ![1, 64]
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v14) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S50000 : Shape := ⟨1, ![50000]⟩
abbrev S800000 : Shape := ⟨1, ![800000]⟩
abbrev S_ : Shape := ⟨0, ![]⟩
abbrev S50000x1 : Shape := ⟨2, ![50000, 1]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S50000, .i32⟩
  | .hbm, ⟨10, _⟩ => ⟨S800000, .i32⟩
  | .hbm, ⟨11, _⟩ => ⟨S800000, .i32⟩
  | .hbm, ⟨12, _⟩ => ⟨S_, .i32⟩
  | .hbm, ⟨13, _⟩ => ⟨S50000, .i32⟩
  | .hbm, ⟨14, _⟩ => ⟨S50000, .i1⟩
  | .hbm, ⟨15, _⟩ => ⟨S_, .i32⟩
  | .hbm, ⟨16, _⟩ => ⟨S50000, .i32⟩
  | .hbm, ⟨17, _⟩ => ⟨S50000, .i32⟩
  | .hbm, ⟨18, _⟩ => ⟨S50000, .i32⟩
  | .hbm, ⟨19, _⟩ => ⟨S50000x1, .i32⟩
  | .hbm, ⟨20, _⟩ => ⟨S50000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S_, .f32⟩
  | .hbm, ⟨31, _⟩ => ⟨S50000x64, .f32⟩
  | .hbm, ⟨32, _⟩ => ⟨S800000x1, .i32⟩
  | .hbm, ⟨33, _⟩ => ⟨S50000x64, .f32⟩
  | .hbm, ⟨34, _⟩ => ⟨S_, .f32⟩
  | .hbm, ⟨35, _⟩ => ⟨S800000, .f32⟩
  | .hbm, ⟨36, _⟩ => ⟨S_, .f32⟩
  | .hbm, ⟨37, _⟩ => ⟨S50000, .f32⟩
  | .hbm, ⟨38, _⟩ => ⟨S800000x1, .i32⟩
  | .hbm, ⟨39, _⟩ => ⟨S50000, .f32⟩
  | .hbm, ⟨40, _⟩ => ⟨S_, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000x1, .f32⟩
  | .hbm, ⟨45, _⟩ => ⟨S50000x64, .f32⟩
  | .hbm, ⟨46, _⟩ => ⟨S50000x64, .f32⟩
  | .hbm, ⟨47, _⟩ => ⟨S50000x64, .f32⟩
  | .hbm, ⟨48, _⟩ => ⟨S50000x64, .f32⟩
  | .hbm, ⟨49, _⟩ => ⟨S50000x64, .f32⟩
  | .hbm, ⟨50, _⟩ => ⟨S1x64, .f32⟩
  | .hbm, ⟨51, _⟩ => ⟨S50000x64, .f32⟩
  | .hbm, ⟨52, _⟩ => ⟨S50000x64, .f32⟩
  | .hbm, ⟨53, _⟩ => ⟨S_, .f32⟩
  | .hbm, ⟨54, _⟩ => ⟨S50000x64, .f32⟩
  | .hbm, ⟨55, _⟩ => ⟨S50000x64, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x64, .f32⟩
  | .hbm, ⟨65, _⟩ => ⟨S_, .f32⟩
  | .hbm, ⟨66, _⟩ => ⟨S50000x64, .f32⟩
  | .hbm, ⟨67, _⟩ => ⟨S800000x1, .i32⟩
  | .hbm, ⟨68, _⟩ => ⟨S50000x64, .f32⟩
  | .hbm, ⟨69, _⟩ => ⟨S_, .f32⟩
  | .hbm, ⟨70, _⟩ => ⟨S800000, .f32⟩
  | .hbm, ⟨71, _⟩ => ⟨S_, .f32⟩
  | .hbm, ⟨72, _⟩ => ⟨S50000, .f32⟩
  | .hbm, ⟨73, _⟩ => ⟨S800000x1, .i32⟩
  | .hbm, ⟨74, _⟩ => ⟨S50000, .f32⟩
  | .hbm, ⟨75, _⟩ => ⟨S_, .f32⟩
  | .hbm, ⟨76, _⟩ => ⟨S_, .f32⟩
  | .hbm, ⟨77, _⟩ => ⟨S50000, .f32⟩
  | .hbm, ⟨78, _⟩ => ⟨S50000, .f32⟩
  | .hbm, ⟨79, _⟩ => ⟨S50000x1, .f32⟩
  | .hbm, ⟨80, _⟩ => ⟨S50000x64, .f32⟩
  | .hbm, ⟨81, _⟩ => ⟨S50000x64, .f32⟩
  | .hbm, ⟨82, _⟩ => ⟨S50000x64, .f32⟩
  | .hbm, ⟨83, _⟩ => ⟨S50000x64, .f32⟩
  | .hbm, ⟨84, _⟩ => ⟨S50000x64, .f32⟩
  | .hbm, ⟨85, _⟩ => ⟨S1x64, .f32⟩
  | .hbm, ⟨86, _⟩ => ⟨S50000x64, .f32⟩
  | .hbm, ⟨87, _⟩ => ⟨S50000x64, .f32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_5 : Ref sig .tc := ⟨.hbm, 40, rfl⟩
abbrev main_call0_v0 : Ref sig .tc := ⟨.hbm, 41, rfl⟩
abbrev main_call0_v1 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call1_cst : Ref sig .tc := ⟨.hbm, 53, rfl⟩
abbrev main_call1_v0 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_8 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_9 : Ref sig .tc := ⟨.hbm, 69, rfl⟩
abbrev main_v42 : Ref sig .tc := ⟨.hbm, 70, rfl⟩
abbrev main_cst_10 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_11 : Ref sig .tc := ⟨.hbm, 75, rfl⟩
abbrev main_call2_v0 : Ref sig .tc := ⟨.hbm, 76, rfl⟩
abbrev main_call2_v1 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S50000x1_S50000x64_1_0_n_n_0_1_164_wf : GatherDims.WF S50000x64 S50000x1 S50000x64 [1] [0] [] [0] [] 1 ![1, 64]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []

variable [Facts₀]

def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.HostFns.lean ====
/-
  The host side of the kernel's program, as pure functions of the arrays: the embedding and edge lookups (negative
  indices wrapped, out-of-range reads filled with the not-a-number pattern), the in-degree and its clipped reciprocal
  as a column, the scatter-sum of edge rows into their destination nodes, and the stacking of two weight matrices.
  Each definition spells the printed operations in the printed order, so that the buffers' contents after the host
  stretches are these terms on the nose.
-/
import proofs.«406183_j91285234909245_3_alg».proof.KernelIdeal

noncomputable section

namespace Cert.KernelIdeal.HostFns

open Cert.KernelIdeal Idealize.ShloMosaic
open Cert.KernelIdeal.Facts₀

variable {F : FTy → Type} [FloatOps F] [Facts]

/-- Node indices with the negative ones counted from the end (i ↦ i + 50000 where i < 0). -/
def wrapN (ids : IVec S50000 32) : IVec S50000 32 :=
  select (cmpi .slt ids (broadcastInDim S50000 ![] bcast_S_S50000 (constantI S_ 32 0#32)))
    (addi ids (broadcastInDim S50000 ![] bcast_S_S50000 (constantI S_ 32 50000#32))) ids

/-- The wrapped node indices as a column of start indices. -/
def colN (ids : IVec S50000 32) : IVec S50000x1 32 :=
  broadcastInDim S50000x1 ![0] bcast_S50000_S50000x1_0 (wrapN ids)

/-- Row r, every column: is the wrapped index of row r inside 0 … 49999? -/
def inRangeN (ids : IVec S50000 32) : IVec S50000x64 1 :=
  broadcastInDim S50000x64 ![0] bcast_S50000_S50000x64_0
    (Host.reduce IntOp.andi
      (andi (cmpi .sge (colN ids) (broadcastInDim S50000x1 ![] bcast_S_S50000x1 (constantI S_ 32 0#32)))
        (cmpi .sle (colN ids) (broadcastInDim S50000x1 ![0, 1] bcast_S1x1_S50000x1_0_1
          (broadcastInDim S1x1 ![1] bcast_S1_S1x1_1 (constantI S1 32 49999#32)))))
      (constantI S_ 1 1#1) reducesTo_S50000x1_S50000_d1 h_S_)

/-- The plain row lookup x[ids] at the wrapped indices. -/
def gatherN (x : FVec F S50000x64 .f32) (ids : IVec S50000 32) : FVec F S50000x64 .f32 :=
  Host.gather gather_S50000x64_S50000x1_S50000x64_1_0_n_n_0_1_164 x (colN ids)

/-- The lookup as the kernel's program does it: rows whose wrapped index is out of range are filled. -/
def takeN (x : FVec F S50000x64 .f32) (ids : IVec S50000 32) : FVec F S50000x64 .f32 :=
  select (inRangeN ids) (gatherN x ids)
    (broadcastInDim S50000x64 ![] bcast_S_S50000x64 (constant S_ .f32 0x7FC00000#32))

/-- Edge endpoints with the negative ones counted from the end. -/
def wrapE (src : IVec S800000 32) : IVec S800000 32 :=
  select (cmpi .slt src (broadcastInDim S800000 ![] bcast_S_S800000 (constantI S_ 32 0#32)))
    (addi src (broadcastInDim S800000 ![] bcast_S_S800000 (constantI S_ 32 50000#32))) src

def colE (src : IVec S800000 32) : IVec S800000x1 32 :=
  broadcastInDim S800000x1 ![0] bcast_S800000_S800000x1_0 (wrapE src)

def inRangeE (src : IVec S800000 32) : IVec S800000x64 1 :=
  broadcastInDim S800000x64 ![0] bcast_S800000_S800000x64_0
    (Host.reduce IntOp.andi
      (andi (cmpi .sge (colE src) (broadcastInDim S800000x1 ![] bcast_S_S800000x1 (constantI S_ 32 0#32)))
        (cmpi .sle (colE src) (broadcastInDim S800000x1 ![0, 1] bcast_S1x1_S800000x1_0_1
          (broadcastInDim S1x1 ![1] bcast_S1_S1x1_1 (constantI S1 32 49999#32)))))
      (constantI S_ 1 1#1) reducesTo_S800000x1_S800000_d1 h_S_)

/-- One row of h per edge: the row of the edge's source node. -/
def gatherE (h : FVec F S50000x64 .f32) (src : IVec S800000 32) : FVec F S800000x64 .f32 :=
  Host.gather gather_S50000x64_S800000x1_S800000x64_1_0_n_n_0_1_164 h (colE src)

def takeE (h : FVec F S50000x64 .f32) (src : IVec S800000 32) : FVec F S800000x64 .f32 :=
  select (inRangeE src) (gatherE h src)
    (broadcastInDim S800000x64 ![] bcast_S_S800000x64 (constant S_ .f32 0x7FC00000#32))

/-- Edge destinations as a column of scatter indices. -/
def colDst (dst : IVec S800000 32) : IVec S800000x1 32 :=
  broadcastInDim S800000x1 ![0] bcast_S800000_S800000x1_0 dst

/-- In-degree: a one scattered onto every edge's destination node. -/
def degree (dst : IVec S800000 32) : FVec F S50000 .f32 :=
  Host.scatterAdd scatter_S50000_S800000x1_S800000_n_0_0_1
    (broadcastInDim S50000 ![] bcast_S_S50000 (constant S_ .f32 0x00000000#32)) (colDst dst)
    (broadcastInDim S800000 ![] bcast_S_S800000 (constant S_ .f32 0x3F800000#32))

/-- max(1, ·), entry by entry. -/
def clipOne (d : FVec F S50000 .f32) : FVec F S50000 .f32 :=
  maximumf (broadcastInDim S50000 ![] bcast_S_S50000 (id (constant S_ .f32 0x3F800000#32))) d

/-- 1 / c, as a column. -/
def invColOf (c : FVec F S50000 .f32) : FVec F S50000x1 .f32 :=
  broadcastInDim S50000x1 ![0] bcast_S50000_S50000x1_0
    (Host.divf (broadcastInDim S50000 ![] bcast_S_S50000 (constant S_ .f32 0x3F800000#32)) c)

/-- The reciprocal of the clipped in-degree, as a column. -/
def invCol (dst : IVec S800000 32) : FVec F S50000x1 .f32 := invColOf (clipOne (degree dst))

/-- Sum of the edge rows y into their destination nodes. -/
def aggregate (y : FVec F S800000x64 .f32) (dst : IVec S800000 32) : FVec F S50000x64 .f32 :=
  Host.scatterAdd scatter_S50000x64_S800000x1_S800000x64_1_0_0_1
    (broadcastInDim S50000x64 ![] bcast_S_S50000x64 (constant S_ .f32 0x00000000#32)) (colDst dst) y

/-- Two 64 × 64 matrices stacked into one 128 × 64 matrix. -/
def stack (a b : FVec F S64x64 .f32) : FVec F S128x64 .f32 :=
  concatenate S128x64 0 [⟨S64x64, a⟩, ⟨S64x64, b⟩] concatenates_S64x64_S64x64_S128x64_d0

end Cert.KernelIdeal.HostFns

end
-- ==== Proof.HostStages.lean ====
/-
  The contents of the buffers at the two pallas_calls' entries, as the host functions of the argument arrays: before the
  first call the looked-up embedding rows, their scatter-sum over the edges, the reciprocal clipped in-degree as a
  column and the stacked first-layer weights; before the second call the first call's output, the scatter-sum of its
  rows over the edges, the same reciprocal column and the stacked second-layer weights. Every host operation writes
  its own buffer only, so a buffer keeps its contents through the stretches that do not name it; each stretch is read
  by itself, from whatever the buffers held before it.
-/
import proofs.«406183_j91285234909245_3_alg».proof.Proof.Gen.KernelIdeal.Frame
import proofs.«406183_j91285234909245_3_alg».proof.Proof.HostFns
import Idealize.ShloMosaic.Lib.StableHlo.Run

set_option maxRecDepth 16384

noncomputable section

namespace Cert.KernelIdeal.Stages

open Cert.KernelIdeal Cert.KernelIdeal.Gen Cert.KernelIdeal.HostFns
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A buffer that no operation of a stretch writes holds after the stretch what it held before. -/
local macro "unwritten" : tactic => `(tactic| (
  refine StableHlo.after_of_forall_not_mem _ _ (List.forall_iff_forall_mem.mp ?_)
  simp only [hostOps0, hostOps0_1, hostOps0_2, hostOps0_3, hostOps0_4, hostOps0_5, hostOps1, hostOps1_1, List.Forall,
    StableHlo.nullary_writes, StableHlo.unary_writes, StableHlo.binary_writes, StableHlo.ternary_writes, Finset.mem_singleton]
  repeat' apply And.intro
  all_goals exact StableHlo.devRef_ne_of_ne (by decide)))

/-! ## Contents carried to a buffer's own type and back -/

/-- Contents carried to a buffer's own type and back are the contents. -/
theorem ofBuf_toBuf {sig' : RefSig} {Val : EltTy → Type} {T : BufTy} (x : StableHlo.TRef sig' T) (v : T.Contents Val) :
    x.ofBuf (x.toBuf v) = v := by
  obtain ⟨r, h, h2, h3⟩ := x
  subst h
  rfl

theorem of_arg0 (p1 p2 p3) (v : (main_arg0 : Ref sig .tc).ty.Contents (Elt F)) :
    (TRef.of (sig := sig) (T := ⟨S50000x64, .f32⟩) main_arg0 p1 p2 p3).ofBuf v = v := rfl
theorem of_arg9 (p1 p2 p3) (v : (main_arg9 : Ref sig .tc).ty.Contents (Elt F)) :
    (TRef.of (sig := sig) (T := ⟨S50000, .i32⟩) main_arg9 p1 p2 p3).ofBuf v = v := rfl
theorem of_arg10 (p1 p2 p3) (v : (main_arg10 : Ref sig .tc).ty.Contents (Elt F)) :
    (TRef.of (sig := sig) (T := ⟨S800000, .i32⟩) main_arg10 p1 p2 p3).ofBuf v = v := rfl
theorem of_v0 (p1 p2 p3) (v : (main_v0 : Ref sig .tc).ty.Contents (Elt F)) :
    (TRef.of (sig := sig) (T := ⟨S50000x64, .f32⟩) main_v0 p1 p2 p3).ofBuf v = v := rfl
theorem of_v14 (p1 p2 p3) (v : (main_v14 : Ref sig .tc).ty.Contents (Elt F)) :
    (TRef.of (sig := sig) (T := ⟨S50000x64, .f32⟩) main_v14 p1 p2 p3).ofBuf v = v := rfl
theorem to_v0 (p1 p2 p3) (v : (⟨S50000x64, .f32⟩ : BufTy).Contents (Elt F)) :
    (TRef.of (sig := sig) (T := ⟨S50000x64, .f32⟩) main_v0 p1 p2 p3).toBuf v = v := rfl
theorem to_v9 (p1 p2 p3) (v : (⟨S800000x64, .f32⟩ : BufTy).Contents (Elt F)) :
    (TRef.of (sig := sig) (T := ⟨S800000x64, .f32⟩) main_v9 p1 p2 p3).toBuf v = v := rfl
theorem to_v15 (p1 p2 p3) (v : (⟨S800000x64, .f32⟩ : BufTy).Contents (Elt F)) :
    (TRef.of (sig := sig) (T := ⟨S800000x64, .f32⟩) main_v15 p1 p2 p3).toBuf v = v := rfl

/-! ## The stretches before the first call, one at a time -/

set_option maxHeartbeats 2000000 in
theorem lookup_rows (c : Dev nD) :
    W1 m ρ c (Proc.devRef .tc main_v0) = takeN (W0 m ρ c (Proc.devRef .tc main_arg0)) (W0 m ρ c (Proc.devRef .tc main_arg9)) := by
  dsimp only [W1]
  generalize W0 m ρ c = V
  after_results_simp
  simp only [ofBuf_toBuf, of_arg0, of_arg9, to_v0]
  rfl

set_option maxHeartbeats 2000000 in
theorem degree_at (c : Dev nD) : W2 m ρ c (Proc.devRef .tc main_v4) = degree (W1 m ρ c (Proc.devRef .tc main_arg11)) := by
  dsimp only [W2]
  generalize W1 m ρ c = V
  after_results_simp
  try simp only [TRef.ofBuf, TRef.toBuf, cast_eq]
  try rfl

set_option maxHeartbeats 2000000 in
theorem one_at (c : Dev nD) : W2 m ρ c (Proc.devRef .tc main_cst_1) = constant S_ .f32 0x3F800000#32 := by
  dsimp only [W2]
  generalize W1 m ρ c = V
  after_results_simp
  try simp only [TRef.ofBuf, TRef.toBuf, cast_eq]
  try rfl

set_option maxHeartbeats 2000000 in
theorem clipped_at (c : Dev nD) :
    W3 m ρ c (Proc.devRef .tc main_v5)
      = maximumf (broadcastInDim S50000 ![] Facts₀.bcast_S_S50000 (id (W2 m ρ c (Proc.devRef .tc main_cst_1)))) (W2 m ρ c (Proc.devRef .tc main_v4)) := by
  dsimp only [W3]
  generalize W2 m ρ c = V
  after_results_simp
  try simp only [TRef.ofBuf, TRef.toBuf, cast_eq]
  try rfl

set_option maxHeartbeats 2000000 in
theorem inv_at (c : Dev nD) : W4 m ρ c (Proc.devRef .tc main_v8) = invColOf (W3 m ρ c (Proc.devRef .tc main_v5)) := by
  dsimp only [W4]
  generalize W3 m ρ c = V
  after_results_simp
  try simp only [TRef.ofBuf, TRef.toBuf, cast_eq]
  try rfl

set_option maxHeartbeats 2000000 in
theorem edge_rows_at (c : Dev nD) :
    W5 m ρ c (Proc.devRef .tc main_v9) = takeE (W4 m ρ c (Proc.devRef .tc main_v0)) (W4 m ρ c (Proc.devRef .tc main_arg10)) := by
  dsimp only [W5]
  generalize W4 m ρ c = V
  after_results_simp
  simp only [ofBuf_toBuf, of_v0, of_arg10, to_v9]
  rfl

set_option maxHeartbeats 2000000 in
theorem agg_at (c : Dev nD) :
    W6 m ρ c (Proc.devRef .tc main_v12) = aggregate (W5 m ρ c (Proc.devRef .tc main_v9)) (W5 m ρ c (Proc.devRef .tc main_arg11)) := by
  dsimp only [W6]
  generalize W5 m ρ c = V
  after_results_simp
  try simp only [TRef.ofBuf, TRef.toBuf, cast_eq]
  try rfl

set_option maxHeartbeats 2000000 in
theorem stack_at (c : Dev nD) :
    W6 m ρ c (Proc.devRef .tc main_v13) = stack (W5 m ρ c (Proc.devRef .tc main_arg1)) (W5 m ρ c (Proc.devRef .tc main_arg2)) := by
  dsimp only [W6]
  generalize W5 m ρ c = V
  after_results_simp
  try simp only [TRef.ofBuf, TRef.toBuf, cast_eq]
  try rfl

/-! ## The arguments are never written -/

theorem arg1_at1 (c : Dev nD) : W1 m ρ c (Proc.devRef .tc main_arg1) = m ((c.tc : Thread nD τ).loc main_arg1) :=
  (by unwritten : W1 m ρ c (Proc.devRef .tc main_arg1) = W0 m ρ c (Proc.devRef .tc main_arg1))
theorem arg1_at2 (c : Dev nD) : W2 m ρ c (Proc.devRef .tc main_arg1) = m ((c.tc : Thread nD τ).loc main_arg1) :=
  (by unwritten : W2 m ρ c (Proc.devRef .tc main_arg1) = W1 m ρ c (Proc.devRef .tc main_arg1)).trans (arg1_at1 m ρ c)
theorem arg1_at3 (c : Dev nD) : W3 m ρ c (Proc.devRef .tc main_arg1) = m ((c.tc : Thread nD τ).loc main_arg1) :=
  (by unwritten : W3 m ρ c (Proc.devRef .tc main_arg1) = W2 m ρ c (Proc.devRef .tc main_arg1)).trans (arg1_at2 m ρ c)
theorem arg1_at4 (c : Dev nD) : W4 m ρ c (Proc.devRef .tc main_arg1) = m ((c.tc : Thread nD τ).loc main_arg1) :=
  (by unwritten : W4 m ρ c (Proc.devRef .tc main_arg1) = W3 m ρ c (Proc.devRef .tc main_arg1)).trans (arg1_at3 m ρ c)
theorem arg1_at5 (c : Dev nD) : W5 m ρ c (Proc.devRef .tc main_arg1) = m ((c.tc : Thread nD τ).loc main_arg1) :=
  (by unwritten : W5 m ρ c (Proc.devRef .tc main_arg1) = W4 m ρ c (Proc.devRef .tc main_arg1)).trans (arg1_at4 m ρ c)
theorem arg1_at6 (c : Dev nD) : W6 m ρ c (Proc.devRef .tc main_arg1) = m ((c.tc : Thread nD τ).loc main_arg1) :=
  (by unwritten : W6 m ρ c (Proc.devRef .tc main_arg1) = W5 m ρ c (Proc.devRef .tc main_arg1)).trans (arg1_at5 m ρ c)
theorem arg2_at1 (c : Dev nD) : W1 m ρ c (Proc.devRef .tc main_arg2) = m ((c.tc : Thread nD τ).loc main_arg2) :=
  (by unwritten : W1 m ρ c (Proc.devRef .tc main_arg2) = W0 m ρ c (Proc.devRef .tc main_arg2))
theorem arg2_at2 (c : Dev nD) : W2 m ρ c (Proc.devRef .tc main_arg2) = m ((c.tc : Thread nD τ).loc main_arg2) :=
  (by unwritten : W2 m ρ c (Proc.devRef .tc main_arg2) = W1 m ρ c (Proc.devRef .tc main_arg2)).trans (arg2_at1 m ρ c)
theorem arg2_at3 (c : Dev nD) : W3 m ρ c (Proc.devRef .tc main_arg2) = m ((c.tc : Thread nD τ).loc main_arg2) :=
  (by unwritten : W3 m ρ c (Proc.devRef .tc main_arg2) = W2 m ρ c (Proc.devRef .tc main_arg2)).trans (arg2_at2 m ρ c)
theorem arg2_at4 (c : Dev nD) : W4 m ρ c (Proc.devRef .tc main_arg2) = m ((c.tc : Thread nD τ).loc main_arg2) :=
  (by unwritten : W4 m ρ c (Proc.devRef .tc main_arg2) = W3 m ρ c (Proc.devRef .tc main_arg2)).trans (arg2_at3 m ρ c)
theorem arg2_at5 (c : Dev nD) : W5 m ρ c (Proc.devRef .tc main_arg2) = m ((c.tc : Thread nD τ).loc main_arg2) :=
  (by unwritten : W5 m ρ c (Proc.devRef .tc main_arg2) = W4 m ρ c (Proc.devRef .tc main_arg2)).trans (arg2_at4 m ρ c)
theorem arg2_at6 (c : Dev nD) : W6 m ρ c (Proc.devRef .tc main_arg2) = m ((c.tc : Thread nD τ).loc main_arg2) :=
  (by unwritten : W6 m ρ c (Proc.devRef .tc main_arg2) = W5 m ρ c (Proc.devRef .tc main_arg2)).trans (arg2_at5 m ρ c)
theorem arg3_at1 (c : Dev nD) : W1 m ρ c (Proc.devRef .tc main_arg3) = m ((c.tc : Thread nD τ).loc main_arg3) :=
  (by unwritten : W1 m ρ c (Proc.devRef .tc main_arg3) = W0 m ρ c (Proc.devRef .tc main_arg3))
theorem arg3_at2 (c : Dev nD) : W2 m ρ c (Proc.devRef .tc main_arg3) = m ((c.tc : Thread nD τ).loc main_arg3) :=
  (by unwritten : W2 m ρ c (Proc.devRef .tc main_arg3) = W1 m ρ c (Proc.devRef .tc main_arg3)).trans (arg3_at1 m ρ c)
theorem arg3_at3 (c : Dev nD) : W3 m ρ c (Proc.devRef .tc main_arg3) = m ((c.tc : Thread nD τ).loc main_arg3) :=
  (by unwritten : W3 m ρ c (Proc.devRef .tc main_arg3) = W2 m ρ c (Proc.devRef .tc main_arg3)).trans (arg3_at2 m ρ c)
theorem arg3_at4 (c : Dev nD) : W4 m ρ c (Proc.devRef .tc main_arg3) = m ((c.tc : Thread nD τ).loc main_arg3) :=
  (by unwritten : W4 m ρ c (Proc.devRef .tc main_arg3) = W3 m ρ c (Proc.devRef .tc main_arg3)).trans (arg3_at3 m ρ c)
theorem arg3_at5 (c : Dev nD) : W5 m ρ c (Proc.devRef .tc main_arg3) = m ((c.tc : Thread nD τ).loc main_arg3) :=
  (by unwritten : W5 m ρ c (Proc.devRef .tc main_arg3) = W4 m ρ c (Proc.devRef .tc main_arg3)).trans (arg3_at4 m ρ c)
theorem arg3_at6 (c : Dev nD) : W6 m ρ c (Proc.devRef .tc main_arg3) = m ((c.tc : Thread nD τ).loc main_arg3) :=
  (by unwritten : W6 m ρ c (Proc.devRef .tc main_arg3) = W5 m ρ c (Proc.devRef .tc main_arg3)).trans (arg3_at5 m ρ c)
theorem arg4_at1 (c : Dev nD) : W1 m ρ c (Proc.devRef .tc main_arg4) = m ((c.tc : Thread nD τ).loc main_arg4) :=
  (by unwritten : W1 m ρ c (Proc.devRef .tc main_arg4) = W0 m ρ c (Proc.devRef .tc main_arg4))
theorem arg4_at2 (c : Dev nD) : W2 m ρ c (Proc.devRef .tc main_arg4) = m ((c.tc : Thread nD τ).loc main_arg4) :=
  (by unwritten : W2 m ρ c (Proc.devRef .tc main_arg4) = W1 m ρ c (Proc.devRef .tc main_arg4)).trans (arg4_at1 m ρ c)
theorem arg4_at3 (c : Dev nD) : W3 m ρ c (Proc.devRef .tc main_arg4) = m ((c.tc : Thread nD τ).loc main_arg4) :=
  (by unwritten : W3 m ρ c (Proc.devRef .tc main_arg4) = W2 m ρ c (Proc.devRef .tc main_arg4)).trans (arg4_at2 m ρ c)
theorem arg4_at4 (c : Dev nD) : W4 m ρ c (Proc.devRef .tc main_arg4) = m ((c.tc : Thread nD τ).loc main_arg4) :=
  (by unwritten : W4 m ρ c (Proc.devRef .tc main_arg4) = W3 m ρ c (Proc.devRef .tc main_arg4)).trans (arg4_at3 m ρ c)
theorem arg4_at5 (c : Dev nD) : W5 m ρ c (Proc.devRef .tc main_arg4) = m ((c.tc : Thread nD τ).loc main_arg4) :=
  (by unwritten : W5 m ρ c (Proc.devRef .tc main_arg4) = W4 m ρ c (Proc.devRef .tc main_arg4)).trans (arg4_at4 m ρ c)
theorem arg4_at6 (c : Dev nD) : W6 m ρ c (Proc.devRef .tc main_arg4) = m ((c.tc : Thread nD τ).loc main_arg4) :=
  (by unwritten : W6 m ρ c (Proc.devRef .tc main_arg4) = W5 m ρ c (Proc.devRef .tc main_arg4)).trans (arg4_at5 m ρ c)
theorem arg5_at1 (c : Dev nD) : W1 m ρ c (Proc.devRef .tc main_arg5) = m ((c.tc : Thread nD τ).loc main_arg5) :=
  (by unwritten : W1 m ρ c (Proc.devRef .tc main_arg5) = W0 m ρ c (Proc.devRef .tc main_arg5))
theorem arg5_at2 (c : Dev nD) : W2 m ρ c (Proc.devRef .tc main_arg5) = m ((c.tc : Thread nD τ).loc main_arg5) :=
  (by unwritten : W2 m ρ c (Proc.devRef .tc main_arg5) = W1 m ρ c (Proc.devRef .tc main_arg5)).trans (arg5_at1 m ρ c)
theorem arg5_at3 (c : Dev nD) : W3 m ρ c (Proc.devRef .tc main_arg5) = m ((c.tc : Thread nD τ).loc main_arg5) :=
  (by unwritten : W3 m ρ c (Proc.devRef .tc main_arg5) = W2 m ρ c (Proc.devRef .tc main_arg5)).trans (arg5_at2 m ρ c)
theorem arg5_at4 (c : Dev nD) : W4 m ρ c (Proc.devRef .tc main_arg5) = m ((c.tc : Thread nD τ).loc main_arg5) :=
  (by unwritten : W4 m ρ c (Proc.devRef .tc main_arg5) = W3 m ρ c (Proc.devRef .tc main_arg5)).trans (arg5_at3 m ρ c)
theorem arg5_at5 (c : Dev nD) : W5 m ρ c (Proc.devRef .tc main_arg5) = m ((c.tc : Thread nD τ).loc main_arg5) :=
  (by unwritten : W5 m ρ c (Proc.devRef .tc main_arg5) = W4 m ρ c (Proc.devRef .tc main_arg5)).trans (arg5_at4 m ρ c)
theorem arg5_at6 (c : Dev nD) : W6 m ρ c (Proc.devRef .tc main_arg5) = m ((c.tc : Thread nD τ).loc main_arg5) :=
  (by unwritten : W6 m ρ c (Proc.devRef .tc main_arg5) = W5 m ρ c (Proc.devRef .tc main_arg5)).trans (arg5_at5 m ρ c)
theorem arg6_at1 (c : Dev nD) : W1 m ρ c (Proc.devRef .tc main_arg6) = m ((c.tc : Thread nD τ).loc main_arg6) :=
  (by unwritten : W1 m ρ c (Proc.devRef .tc main_arg6) = W0 m ρ c (Proc.devRef .tc main_arg6))
theorem arg6_at2 (c : Dev nD) : W2 m ρ c (Proc.devRef .tc main_arg6) = m ((c.tc : Thread nD τ).loc main_arg6) :=
  (by unwritten : W2 m ρ c (Proc.devRef .tc main_arg6) = W1 m ρ c (Proc.devRef .tc main_arg6)).trans (arg6_at1 m ρ c)
theorem arg6_at3 (c : Dev nD) : W3 m ρ c (Proc.devRef .tc main_arg6) = m ((c.tc : Thread nD τ).loc main_arg6) :=
  (by unwritten : W3 m ρ c (Proc.devRef .tc main_arg6) = W2 m ρ c (Proc.devRef .tc main_arg6)).trans (arg6_at2 m ρ c)
theorem arg6_at4 (c : Dev nD) : W4 m ρ c (Proc.devRef .tc main_arg6) = m ((c.tc : Thread nD τ).loc main_arg6) :=
  (by unwritten : W4 m ρ c (Proc.devRef .tc main_arg6) = W3 m ρ c (Proc.devRef .tc main_arg6)).trans (arg6_at3 m ρ c)
theorem arg6_at5 (c : Dev nD) : W5 m ρ c (Proc.devRef .tc main_arg6) = m ((c.tc : Thread nD τ).loc main_arg6) :=
  (by unwritten : W5 m ρ c (Proc.devRef .tc main_arg6) = W4 m ρ c (Proc.devRef .tc main_arg6)).trans (arg6_at4 m ρ c)
theorem arg6_at6 (c : Dev nD) : W6 m ρ c (Proc.devRef .tc main_arg6) = m ((c.tc : Thread nD τ).loc main_arg6) :=
  (by unwritten : W6 m ρ c (Proc.devRef .tc main_arg6) = W5 m ρ c (Proc.devRef .tc main_arg6)).trans (arg6_at5 m ρ c)
theorem arg7_at1 (c : Dev nD) : W1 m ρ c (Proc.devRef .tc main_arg7) = m ((c.tc : Thread nD τ).loc main_arg7) :=
  (by unwritten : W1 m ρ c (Proc.devRef .tc main_arg7) = W0 m ρ c (Proc.devRef .tc main_arg7))
theorem arg7_at2 (c : Dev nD) : W2 m ρ c (Proc.devRef .tc main_arg7) = m ((c.tc : Thread nD τ).loc main_arg7) :=
  (by unwritten : W2 m ρ c (Proc.devRef .tc main_arg7) = W1 m ρ c (Proc.devRef .tc main_arg7)).trans (arg7_at1 m ρ c)
theorem arg7_at3 (c : Dev nD) : W3 m ρ c (Proc.devRef .tc main_arg7) = m ((c.tc : Thread nD τ).loc main_arg7) :=
  (by unwritten : W3 m ρ c (Proc.devRef .tc main_arg7) = W2 m ρ c (Proc.devRef .tc main_arg7)).trans (arg7_at2 m ρ c)
theorem arg7_at4 (c : Dev nD) : W4 m ρ c (Proc.devRef .tc main_arg7) = m ((c.tc : Thread nD τ).loc main_arg7) :=
  (by unwritten : W4 m ρ c (Proc.devRef .tc main_arg7) = W3 m ρ c (Proc.devRef .tc main_arg7)).trans (arg7_at3 m ρ c)
theorem arg7_at5 (c : Dev nD) : W5 m ρ c (Proc.devRef .tc main_arg7) = m ((c.tc : Thread nD τ).loc main_arg7) :=
  (by unwritten : W5 m ρ c (Proc.devRef .tc main_arg7) = W4 m ρ c (Proc.devRef .tc main_arg7)).trans (arg7_at4 m ρ c)
theorem arg7_at6 (c : Dev nD) : W6 m ρ c (Proc.devRef .tc main_arg7) = m ((c.tc : Thread nD τ).loc main_arg7) :=
  (by unwritten : W6 m ρ c (Proc.devRef .tc main_arg7) = W5 m ρ c (Proc.devRef .tc main_arg7)).trans (arg7_at5 m ρ c)
theorem arg8_at1 (c : Dev nD) : W1 m ρ c (Proc.devRef .tc main_arg8) = m ((c.tc : Thread nD τ).loc main_arg8) :=
  (by unwritten : W1 m ρ c (Proc.devRef .tc main_arg8) = W0 m ρ c (Proc.devRef .tc main_arg8))
theorem arg8_at2 (c : Dev nD) : W2 m ρ c (Proc.devRef .tc main_arg8) = m ((c.tc : Thread nD τ).loc main_arg8) :=
  (by unwritten : W2 m ρ c (Proc.devRef .tc main_arg8) = W1 m ρ c (Proc.devRef .tc main_arg8)).trans (arg8_at1 m ρ c)
theorem arg8_at3 (c : Dev nD) : W3 m ρ c (Proc.devRef .tc main_arg8) = m ((c.tc : Thread nD τ).loc main_arg8) :=
  (by unwritten : W3 m ρ c (Proc.devRef .tc main_arg8) = W2 m ρ c (Proc.devRef .tc main_arg8)).trans (arg8_at2 m ρ c)
theorem arg8_at4 (c : Dev nD) : W4 m ρ c (Proc.devRef .tc main_arg8) = m ((c.tc : Thread nD τ).loc main_arg8) :=
  (by unwritten : W4 m ρ c (Proc.devRef .tc main_arg8) = W3 m ρ c (Proc.devRef .tc main_arg8)).trans (arg8_at3 m ρ c)
theorem arg8_at5 (c : Dev nD) : W5 m ρ c (Proc.devRef .tc main_arg8) = m ((c.tc : Thread nD τ).loc main_arg8) :=
  (by unwritten : W5 m ρ c (Proc.devRef .tc main_arg8) = W4 m ρ c (Proc.devRef .tc main_arg8)).trans (arg8_at4 m ρ c)
theorem arg8_at6 (c : Dev nD) : W6 m ρ c (Proc.devRef .tc main_arg8) = m ((c.tc : Thread nD τ).loc main_arg8) :=
  (by unwritten : W6 m ρ c (Proc.devRef .tc main_arg8) = W5 m ρ c (Proc.devRef .tc main_arg8)).trans (arg8_at5 m ρ c)
theorem arg10_at1 (c : Dev nD) : W1 m ρ c (Proc.devRef .tc main_arg10) = m ((c.tc : Thread nD τ).loc main_arg10) :=
  (by unwritten : W1 m ρ c (Proc.devRef .tc main_arg10) = W0 m ρ c (Proc.devRef .tc main_arg10))
theorem arg10_at2 (c : Dev nD) : W2 m ρ c (Proc.devRef .tc main_arg10) = m ((c.tc : Thread nD τ).loc main_arg10) :=
  (by unwritten : W2 m ρ c (Proc.devRef .tc main_arg10) = W1 m ρ c (Proc.devRef .tc main_arg10)).trans (arg10_at1 m ρ c)
theorem arg10_at3 (c : Dev nD) : W3 m ρ c (Proc.devRef .tc main_arg10) = m ((c.tc : Thread nD τ).loc main_arg10) :=
  (by unwritten : W3 m ρ c (Proc.devRef .tc main_arg10) = W2 m ρ c (Proc.devRef .tc main_arg10)).trans (arg10_at2 m ρ c)
theorem arg10_at4 (c : Dev nD) : W4 m ρ c (Proc.devRef .tc main_arg10) = m ((c.tc : Thread nD τ).loc main_arg10) :=
  (by unwritten : W4 m ρ c (Proc.devRef .tc main_arg10) = W3 m ρ c (Proc.devRef .tc main_arg10)).trans (arg10_at3 m ρ c)
theorem arg10_at5 (c : Dev nD) : W5 m ρ c (Proc.devRef .tc main_arg10) = m ((c.tc : Thread nD τ).loc main_arg10) :=
  (by unwritten : W5 m ρ c (Proc.devRef .tc main_arg10) = W4 m ρ c (Proc.devRef .tc main_arg10)).trans (arg10_at4 m ρ c)
theorem arg10_at6 (c : Dev nD) : W6 m ρ c (Proc.devRef .tc main_arg10) = m ((c.tc : Thread nD τ).loc main_arg10) :=
  (by unwritten : W6 m ρ c (Proc.devRef .tc main_arg10) = W5 m ρ c (Proc.devRef .tc main_arg10)).trans (arg10_at5 m ρ c)
theorem arg11_at1 (c : Dev nD) : W1 m ρ c (Proc.devRef .tc main_arg11) = m ((c.tc : Thread nD τ).loc main_arg11) :=
  (by unwritten : W1 m ρ c (Proc.devRef .tc main_arg11) = W0 m ρ c (Proc.devRef .tc main_arg11))
theorem arg11_at2 (c : Dev nD) : W2 m ρ c (Proc.devRef .tc main_arg11) = m ((c.tc : Thread nD τ).loc main_arg11) :=
  (by unwritten : W2 m ρ c (Proc.devRef .tc main_arg11) = W1 m ρ c (Proc.devRef .tc main_arg11)).trans (arg11_at1 m ρ c)
theorem arg11_at3 (c : Dev nD) : W3 m ρ c (Proc.devRef .tc main_arg11) = m ((c.tc : Thread nD τ).loc main_arg11) :=
  (by unwritten : W3 m ρ c (Proc.devRef .tc main_arg11) = W2 m ρ c (Proc.devRef .tc main_arg11)).trans (arg11_at2 m ρ c)
theorem arg11_at4 (c : Dev nD) : W4 m ρ c (Proc.devRef .tc main_arg11) = m ((c.tc : Thread nD τ).loc main_arg11) :=
  (by unwritten : W4 m ρ c (Proc.devRef .tc main_arg11) = W3 m ρ c (Proc.devRef .tc main_arg11)).trans (arg11_at3 m ρ c)
theorem arg11_at5 (c : Dev nD) : W5 m ρ c (Proc.devRef .tc main_arg11) = m ((c.tc : Thread nD τ).loc main_arg11) :=
  (by unwritten : W5 m ρ c (Proc.devRef .tc main_arg11) = W4 m ρ c (Proc.devRef .tc main_arg11)).trans (arg11_at4 m ρ c)
theorem arg11_at6 (c : Dev nD) : W6 m ρ c (Proc.devRef .tc main_arg11) = m ((c.tc : Thread nD τ).loc main_arg11) :=
  (by unwritten : W6 m ρ c (Proc.devRef .tc main_arg11) = W5 m ρ c (Proc.devRef .tc main_arg11)).trans (arg11_at5 m ρ c)

end Cert.KernelIdeal.Stages

end
-- ==== Proof.Spec.lean ====
/-
  The mathematics both programs compute, stated once over plain indices.

  A mean-aggregating graph layer on n nodes with 64 features: row r of the result is
    x_r · W_self + (agg_r · inv_r) · W_neigh + b,
  where agg_r is the sum of the neighbours' rows, inv_r the reciprocal of the (clipped) in-degree, and the two
  weight matrices are stacked into one 128 × 64 matrix WC (rows 0..63 the self weights, rows 64..127 the
  neighbour weights). `layer` is that pre-activation, `hidden` its ReLU, `out` a second such layer followed by a
  final linear map. Everything is an exact extended real; no sum is reordered beyond splitting the stacked
  contraction into its two halves.
-/
import Idealize.ShloMosaic.PureOps.Ideal
import Idealize.ShloMosaic.PureOps.Ideal.Laws
import Idealize.ShloMosaic.Lib.ValueIdx

noncomputable section

namespace Cert.SageSpec

open Idealize.ShloMosaic Idealize.ShloMosaic.ValueIdx

/-- The layer before its activation: entry (r, j) is
    Σ_k X[r,k]·WC[k,j] + Σ_k (AGG[r,k]·INV[r,0])·WC[64+k,j] + B[j]. -/
def layer (n : Nat) (X AGG : FVec Ideal ⟨2, ![n, 64]⟩ .f32) (INV : FVec Ideal ⟨2, ![n, 1]⟩ .f32)
    (WC : FVec Ideal ⟨2, ![128, 64]⟩ .f32) (B : FVec Ideal ⟨1, ![64]⟩ .f32) : FVec Ideal ⟨2, ![n, 64]⟩ .f32 :=
  fun i =>
    let r : Fin n := i 0
    let j : Fin 64 := i 1
    ((∑ k : Fin 64, X (ix2 r k) * WC (ix2 (Fin.castAdd 64 k : Fin 128) j))
      + (∑ k : Fin 64, (AGG (ix2 r k) * INV (ix2 r (0 : Fin 1))) * WC (ix2 (Fin.natAdd 64 k : Fin 128) j)))
      + B (ix1 j)

/-- The first layer's output: the layer followed by max(·, 0). -/
def hidden (n : Nat) (X AGG : FVec Ideal ⟨2, ![n, 64]⟩ .f32) (INV : FVec Ideal ⟨2, ![n, 1]⟩ .f32)
    (WC : FVec Ideal ⟨2, ![128, 64]⟩ .f32) (B : FVec Ideal ⟨1, ![64]⟩ .f32) : FVec Ideal ⟨2, ![n, 64]⟩ .f32 :=
  fun i => max (layer n X AGG INV WC B i) (Ideal.ofBits .f32 0x00000000#32)

/-- The second layer followed by the final linear map: entry (r, j) is Σ_k layer[r,k]·WF[k,j] + BF[j]. -/
def out (n : Nat) (X AGG : FVec Ideal ⟨2, ![n, 64]⟩ .f32) (INV : FVec Ideal ⟨2, ![n, 1]⟩ .f32)
    (WC : FVec Ideal ⟨2, ![128, 64]⟩ .f32) (B : FVec Ideal ⟨1, ![64]⟩ .f32)
    (WF : FVec Ideal ⟨2, ![64, 64]⟩ .f32) (BF : FVec Ideal ⟨1, ![64]⟩ .f32) : FVec Ideal ⟨2, ![n, 64]⟩ .f32 :=
  fun i =>
    let r : Fin n := i 0
    let j : Fin 64 := i 1
    (∑ k : Fin 64, layer n X AGG INV WC B (ix2 r k) * WF (ix2 k j)) + BF (ix1 j)

/-- A layer's row depends only on the same row of its three row-indexed operands: if a block of rows agrees with
    the whole arrays at row r, the block's layer at its row p is the whole layer at r. -/
theorem layer_rows {n N : Nat} (Xb AGGb : FVec Ideal ⟨2, ![n, 64]⟩ .f32) (INVb : FVec Ideal ⟨2, ![n, 1]⟩ .f32)
    (X AGG : FVec Ideal ⟨2, ![N, 64]⟩ .f32) (INV : FVec Ideal ⟨2, ![N, 1]⟩ .f32)
    (WC : FVec Ideal ⟨2, ![128, 64]⟩ .f32) (B : FVec Ideal ⟨1, ![64]⟩ .f32) (p : Fin n) (r : Fin N) (q : Fin 64)
    (hX : ∀ k : Fin 64, Xb (ix2 p k) = X (ix2 r k)) (hA : ∀ k : Fin 64, AGGb (ix2 p k) = AGG (ix2 r k))
    (hI : INVb (ix2 p (0 : Fin 1)) = INV (ix2 r (0 : Fin 1))) :
    layer n Xb AGGb INVb WC B (ix2 p q) = layer N X AGG INV WC B (ix2 r q) := by
  show ((∑ k : Fin 64, Xb (ix2 p k) * WC (ix2 (Fin.castAdd 64 k : Fin 128) q))
      + (∑ k : Fin 64, (AGGb (ix2 p k) * INVb (ix2 p (0 : Fin 1))) * WC (ix2 (Fin.natAdd 64 k : Fin 128) q))) + B (ix1 q)
    = ((∑ k : Fin 64, X (ix2 r k) * WC (ix2 (Fin.castAdd 64 k : Fin 128) q))
      + (∑ k : Fin 64, (AGG (ix2 r k) * INV (ix2 r (0 : Fin 1))) * WC (ix2 (Fin.natAdd 64 k : Fin 128) q))) + B (ix1 q)
  simp only [hX, hA, hI]

end Cert.SageSpec

end
-- ==== Proof.Payload.lean ====
/-
  The two kernel bodies' arithmetic, block by block: what each body stores is the layer function of the blocks it loaded.
-/
import proofs.«406183_j91285234909245_3_alg».proof.Proof.Gen.KernelIdeal.Skeleton
import proofs.«406183_j91285234909245_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx

/-- A column broadcast along the second axis reads the column's entry of the same row. -/
private theorem bcast_col (v : FVec Ideal S5000x1 .f32) (p : Fin 5000) (q : Fin 64) :
    broadcastTo S5000x64 v broadcasts_S5000x1_S5000x64 (ix2 p q) = v (ix2 p (0 : Fin 1)) :=
  broadcastTo_apply v broadcasts_S5000x1_S5000x64 (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])

/-- A row broadcast along the first axis reads the row's entry of the same column. -/
private theorem bcast_row (v : FVec Ideal S1x64 .f32) (p : Fin 5000) (q : Fin 64) :
    broadcastTo S5000x64 v broadcasts_S1x64_S5000x64 (ix2 p q) = v (ix2 (0 : Fin 1) q) :=
  broadcastTo_apply v broadcasts_S1x64_S5000x64 (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-- A vector of 64 entries recast as one row of 64 keeps its entries. -/
private theorem cast_row (v : FVec Ideal S64 .f32) (q : Fin 64) :
    shapeCast S1x64 v shapeCasts_S64_S1x64 (ix2 (0 : Fin 1) q) = v (ix1 q) :=
  shapeCast_apply v shapeCasts_S64_S1x64 (ix2 (0 : Fin 1) q) (ix1 q) (by
    rw [Shape.rowMajor_val_one, Shape.rowMajor_val_two]
    show q.val = 0 * 64 + q.val
    omega)

/-- The two-piece concatenation along the columns, read in its first 64 columns, is the first piece. -/
private theorem cat_left (a b : FVec Ideal S5000x64 .f32) (p : Fin 5000) (k : Fin 64) :
    concatenate S5000x128 1 [⟨S5000x64, a⟩, ⟨S5000x64, b⟩] concatenates_S5000x64_S5000x64_S5000x128_d1
      (ix2 p (Fin.castAdd 64 k : Fin 128)) = a (ix2 p k) :=
  concatenate_pair_apply_left (t := S5000x128) (s₁ := S5000x64) (s₂ := S5000x64) (1 : Fin 2) a b
    concatenates_S5000x64_S5000x64_S5000x128_d1 (ix2 p (Fin.castAdd 64 k : Fin 128)) rfl (ix2 p k) (fun c => match c with
    | ⟨0, _⟩ => rfl
    | ⟨1, _⟩ => rfl)

/-- Read in its last 64 columns, it is the second piece. -/
private theorem cat_right (a b : FVec Ideal S5000x64 .f32) (p : Fin 5000) (k : Fin 64) :
    concatenate S5000x128 1 [⟨S5000x64, a⟩, ⟨S5000x64, b⟩] concatenates_S5000x64_S5000x64_S5000x128_d1
      (ix2 p (Fin.natAdd 64 k : Fin 128)) = b (ix2 p k) :=
  concatenate_pair_apply_right (t := S5000x128) (s₁ := S5000x64) (s₂ := S5000x64) (1 : Fin 2) a b
    concatenates_S5000x64_S5000x64_S5000x128_d1 (ix2 p (Fin.natAdd 64 k : Fin 128)) rfl rfl (ix2 p k) (fun c => match c with
    | ⟨0, _⟩ => fun _ => rfl
    | ⟨1, _⟩ => fun h => absurd rfl h)
    (by show k.val + 64 = 64 + k.val; omega)

/-! The operand positions of the first product (5000×128 times 128×64) at output (p, q) and contracted position c:
    left (p, c), right (c, q), coordinate by coordinate. -/
private theorem lhs_first_0 (i : S5000x64.Idx) (c : dot_S5000x128_S128x64_S5000x64_1_0_0_1_n_n.contr.Idx) :
    (dot_S5000x128_S128x64_S5000x64_1_0_0_1_n_n.lhsIdx i c 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
private theorem lhs_first_1 (i : S5000x64.Idx) (c : dot_S5000x128_S128x64_S5000x64_1_0_0_1_n_n.contr.Idx) :
    (dot_S5000x128_S128x64_S5000x64_1_0_0_1_n_n.lhsIdx i c 1).val = (c ⟨0, by decide⟩).val :=
  dot_S5000x128_S128x64_S5000x64_1_0_0_1_n_n.lhsIdx_val_of_single rfl i c
private theorem rhs_first_0 (i : S5000x64.Idx) (c : dot_S5000x128_S128x64_S5000x64_1_0_0_1_n_n.contr.Idx) :
    (dot_S5000x128_S128x64_S5000x64_1_0_0_1_n_n.rhsIdx i c 0).val = (c ⟨0, by decide⟩).val :=
  dot_S5000x128_S128x64_S5000x64_1_0_0_1_n_n.rhsIdx_val_of_single rfl i c
private theorem rhs_first_1 (i : S5000x64.Idx) (c : dot_S5000x128_S128x64_S5000x64_1_0_0_1_n_n.contr.Idx) :
    (dot_S5000x128_S128x64_S5000x64_1_0_0_1_n_n.rhsIdx i c 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- The matrix product into a zero accumulator, read at (p, q): the sum over the 128 contracted positions of row p of the
    left operand times column q of the right. -/
private theorem mm_first (L : FVec Ideal S5000x128 .bf16) (R : FVec Ideal S128x64 .bf16) (p : Fin 5000) (q : Fin 64) :
    matmul (F := Ideal) dot_S5000x128_S128x64_S5000x64_1_0_0_1_n_n none L R (constant (F := Ideal) S5000x64 .f32 0x00000000#32) (ix2 p q)
      = ∑ k : Fin 128, L (ix2 p k) * R (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_first_0 _ _
    | ⟨1, _⟩ => exact (lhs_first_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_first_0 _ _).trans hk
    | ⟨1, _⟩ => exact rhs_first_1 _ _)
  rw [el, er]

/-! The same for the second product (5000×64 times 64×64). -/
private theorem lhs_second_0 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
private theorem lhs_second_1 (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c
private theorem rhs_second_0 (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c
private theorem rhs_second_1 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The matrix product into a zero accumulator, read at (p, q): the sum over the 64 contracted positions of row p of the
    left operand times column q of the right. -/
private theorem mm_second (L : FVec Ideal S5000x64 .bf16) (R : FVec Ideal S64x64 .bf16) (p : Fin 5000) (q : Fin 64) :
    matmul (F := Ideal) dot_S5000x64_S64x64_S5000x64_1_0_0_1_n_n none L R (constant (F := Ideal) S5000x64 .f32 0x00000000#32) (ix2 p q)
      = ∑ k : Fin 64, L (ix2 p k) * R (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_second_0 _ _
    | ⟨1, _⟩ => exact (lhs_second_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_second_0 _ _).trans hk
    | ⟨1, _⟩ => exact rhs_second_1 _ _)
  rw [el, er]

/-- The operations the two bodies share: the stacked operand [x0 | x1 · inv] times the stacked weights, plus the bias row. -/
private def pre (x0 x1 : FVec Ideal S5000x64 .f32) (x2 : FVec Ideal S5000x1 .f32) (x3 : FVec Ideal S128x64 .f32)
    (x4 : FVec Ideal S64 .f32) : FVec Ideal S5000x64 .f32 :=
  addf
    (matmul (F := Ideal) dot_S5000x128_S128x64_S5000x64_1_0_0_1_n_n none
      (truncf .bf16
        (concatenate S5000x128 1
          [⟨S5000x64, shapeCast S5000x64 x0 shapeCasts_S5000x64_S5000x64⟩,
           ⟨S5000x64, mulf (shapeCast S5000x64 x1 shapeCasts_S5000x64_S5000x64)
              (broadcastTo S5000x64 (shapeCast S5000x1 x2 shapeCasts_S5000x1_S5000x1) broadcasts_S5000x1_S5000x64)⟩]
          concatenates_S5000x64_S5000x64_S5000x128_d1)
        bitsLt_bf16_f32)
      (truncf .bf16 (shapeCast S128x64 x3 shapeCasts_S128x64_S128x64) bitsLt_bf16_f32)
      (constant (F := Ideal) S5000x64 .f32 0x00000000#32))
    (broadcastTo S5000x64 (shapeCast S1x64 x4 shapeCasts_S64_S1x64) broadcasts_S1x64_S5000x64)

/-- Entry (p, q) of the shared operations is the layer: the contraction over the 128 stacked positions splits into the
    self half (positions 0..63, reading x0) and the neighbour half (positions 64..127, reading x1 · inv). -/
private theorem pre_apply (x0 x1 : FVec Ideal S5000x64 .f32) (x2 : FVec Ideal S5000x1 .f32) (x3 : FVec Ideal S128x64 .f32)
    (x4 : FVec Ideal S64 .f32) (p : Fin 5000) (q : Fin 64) :
    pre x0 x1 x2 x3 x4 (ix2 p q) = Cert.SageSpec.layer 5000 x0 x1 x2 x3 x4 (ix2 p q) := by
  unfold pre
  rw [shapeCast_self x0, shapeCast_self x1, shapeCast_self x2, shapeCast_self x3]
  rw [addf_apply, mm_first, bcast_row, cast_row]
  show _ = ((∑ k : Fin 64, x0 (ix2 p k) * x3 (ix2 (Fin.castAdd 64 k : Fin 128) q))
      + (∑ k : Fin 64, (x1 (ix2 p k) * x2 (ix2 p (0 : Fin 1))) * x3 (ix2 (Fin.natAdd 64 k : Fin 128) q))) + x4 (ix1 q)
  congr 1
  refine (Fin.sum_univ_add (a := 64) (b := 64) _).trans ?_
  congr 1
  · refine Finset.sum_congr rfl fun k _ => ?_
    rw [truncf_apply, truncf_apply, cat_left]
  · refine Finset.sum_congr rfl fun k _ => ?_
    rw [truncf_apply, truncf_apply, cat_right, mulf_apply, bcast_col]

private theorem pre_eq (x0 x1 : FVec Ideal S5000x64 .f32) (x2 : FVec Ideal S5000x1 .f32) (x3 : FVec Ideal S128x64 .f32)
    (x4 : FVec Ideal S64 .f32) : pre x0 x1 x2 x3 x4 = Cert.SageSpec.layer 5000 x0 x1 x2 x3 x4 := by
  funext i
  obtain ⟨p, q, rfl⟩ : ∃ (p : Fin 5000) (q : Fin 64), i = ix2 p q := ⟨i 0, i 1, eq_ix2 i⟩
  exact pre_apply x0 x1 x2 x3 x4 p q

/-- The first kernel's stored block is the ReLU'd layer of its five loaded blocks. -/
theorem pay0_eq (x0 x1 : Vec Ideal S5000x64 .f32) (x2 : Vec Ideal S5000x1 .f32) (x3 : Vec Ideal S128x64 .f32)
    (x4 : Vec Ideal S64 .f32) :
    k0_pay1 (F := Ideal) x0 x1 x2 x3 x4 = Cert.SageSpec.hidden 5000 x0 x1 x2 x3 x4 := by
  funext i
  show max (pre x0 x1 x2 x3 x4 i) (Ideal.ofBits .f32 0x00000000#32)
    = max (Cert.SageSpec.layer 5000 x0 x1 x2 x3 x4 i) (Ideal.ofBits .f32 0x00000000#32)
  rw [pre_eq]

/-- The second kernel's stored block is the second layer of its loaded blocks followed by the final linear map. -/
theorem pay1_eq (x0 x1 : Vec Ideal S5000x64 .f32) (x2 : Vec Ideal S5000x1 .f32) (x3 : Vec Ideal S128x64 .f32)
    (x4 : Vec Ideal S64 .f32) (x5 : Vec Ideal S64x64 .f32) (x6 : Vec Ideal S64 .f32) :
    k1_pay1 (F := Ideal) x0 x1 x2 x3 x4 x5 x6 = Cert.SageSpec.out 5000 x0 x1 x2 x3 x4 x5 x6 := by
  funext i
  obtain ⟨p, q, rfl⟩ : ∃ (p : Fin 5000) (q : Fin 64), i = ix2 p q := ⟨i 0, i 1, eq_ix2 i⟩
  show addf
      (matmul (F := Ideal) dot_S5000x64_S64x64_S5000x64_1_0_0_1_n_n none
        (truncf .bf16 (pre x0 x1 x2 x3 x4) bitsLt_bf16_f32) (truncf .bf16 (x5 : FVec Ideal S64x64 .f32) bitsLt_bf16_f32)
        (constant (F := Ideal) S5000x64 .f32 0x00000000#32))
      (broadcastTo S5000x64 (shapeCast S1x64 (x6 : FVec Ideal S64 .f32) shapeCasts_S64_S1x64) broadcasts_S1x64_S5000x64) (ix2 p q)
    = (∑ k : Fin 64, Cert.SageSpec.layer 5000 x0 x1 x2 x3 x4 (ix2 p k) * x5 (ix2 k q)) + x6 (ix1 q)
  rw [addf_apply, mm_second, bcast_row, cast_row, pre_eq]
  rfl

end Cert.KernelIdeal.BlockValue

end
-- ==== Proof.Final.lean ====
/-
  From blocks to arrays: after each pallas_call's ten grid points, its output array is the layer function of its
  input arrays — every block of 5000 rows is the same function of the same rows.
-/
import proofs.«406183_j91285234909245_3_alg».proof.Proof.Gen.KernelIdeal.Frame
import proofs.«406183_j91285234909245_3_alg».proof.Proof.Payload
import proofs.«406183_j91285234909245_3_alg».proof.Proof.Spec
import Idealize.ShloMosaic.Lib.Pipeline.Value
import Idealize.ShloMosaic.Lib.ValueIdx

set_option maxRecDepth 16384

noncomputable section

namespace Cert.KernelIdeal.ArrayValue

open Cert.KernelIdeal Cert.KernelIdeal.Gen Idealize.ShloMosaic Idealize.ShloMosaic.TcCoe Idealize.SL.Sem Idealize.ShloMosaic.ValueIdx
open Idealize.ShloMosaic.Pipeline (Dat Cfg Window)

/-! ## The layer functions, block of rows by block of rows -/

/-- The rank-2 zero offsets, as the constant function. -/
theorem zeros2 : (![0, 0] : Fin 2 → Nat) = fun _ => 0 := funext fun a => by fin_cases a <;> rfl

/-- The rank-1 zero offset, as the constant function. -/
theorem zeros1 : (![0] : Fin 1 → Nat) = fun _ => 0 := funext fun a => by fin_cases a <;> rfl

/-- The first layer's output on the block of rows 5000·t … 5000·t + 4999: if the three row-indexed blocks hold those rows
    of the arrays and the two small operands are the whole small arrays, the block's value at (p, q) is the whole
    array's value at (5000·t + p, q). -/
theorem hidden_rows (Xb AGGb : FVec Ideal ⟨2, ![5000, 64]⟩ .f32) (INVb : FVec Ideal ⟨2, ![5000, 1]⟩ .f32)
    (X AGG : FVec Ideal ⟨2, ![50000, 64]⟩ .f32) (INV : FVec Ideal ⟨2, ![50000, 1]⟩ .f32)
    (WCb WC : FVec Ideal ⟨2, ![128, 64]⟩ .f32) (Bb B : FVec Ideal ⟨1, ![64]⟩ .f32) (t : Nat)
    (hX : ∀ (p : Fin 5000) (r : Fin 50000) (k : Fin 64), r.val = 5000 * t + p.val → Xb (ix2 p k) = X (ix2 r k))
    (hA : ∀ (p : Fin 5000) (r : Fin 50000) (k : Fin 64), r.val = 5000 * t + p.val → AGGb (ix2 p k) = AGG (ix2 r k))
    (hI : ∀ (p : Fin 5000) (r : Fin 50000), r.val = 5000 * t + p.val → INVb (ix2 p (0 : Fin 1)) = INV (ix2 r (0 : Fin 1)))
    (hW : WCb = WC) (hB : Bb = B)
    (y : (⟨2, ![5000, 64]⟩ : Shape).Idx) (i : (⟨2, ![50000, 64]⟩ : Shape).Idx)
    (h0 : (i 0).val = 5000 * t + (y 0).val) (h1 : (i 1).val = (y 1).val) :
    Cert.SageSpec.hidden 5000 Xb AGGb INVb WCb Bb y = Cert.SageSpec.hidden 50000 X AGG INV WC B i := by
  subst hW hB
  obtain ⟨p, q, rfl⟩ : ∃ (p : Fin 5000) (q : Fin 64), y = ix2 p q := ⟨y 0, y 1, eq_ix2 y⟩
  obtain ⟨r, q', rfl⟩ : ∃ (r : Fin 50000) (q' : Fin 64), i = ix2 r q' := ⟨i 0, i 1, eq_ix2 i⟩
  have h0' : r.val = 5000 * t + p.val := h0
  obtain rfl : q' = q := Fin.ext h1
  show max (Cert.SageSpec.layer 5000 Xb AGGb INVb WCb Bb (ix2 p q')) _
    = max (Cert.SageSpec.layer 50000 X AGG INV WCb Bb (ix2 r q')) _
  rw [Cert.SageSpec.layer_rows Xb AGGb INVb X AGG INV WCb Bb p r q' (fun k => hX p r k h0') (fun k => hA p r k h0')
    (hI p r h0')]

/-- The second layer followed by the final linear map, on the block of rows 5000·t … 5000·t + 4999: the block's value
    at (p, q) is the whole array's value at (5000·t + p, q). -/
theorem out_rows (Xb AGGb : FVec Ideal ⟨2, ![5000, 64]⟩ .f32) (INVb : FVec Ideal ⟨2, ![5000, 1]⟩ .f32)
    (X AGG : FVec Ideal ⟨2, ![50000, 64]⟩ .f32) (INV : FVec Ideal ⟨2, ![50000, 1]⟩ .f32)
    (WCb WC : FVec Ideal ⟨2, ![128, 64]⟩ .f32) (Bb B : FVec Ideal ⟨1, ![64]⟩ .f32)
    (WFb WF : FVec Ideal ⟨2, ![64, 64]⟩ .f32) (BFb BF : FVec Ideal ⟨1, ![64]⟩ .f32) (t : Nat)
    (hX : ∀ (p : Fin 5000) (r : Fin 50000) (k : Fin 64), r.val = 5000 * t + p.val → Xb (ix2 p k) = X (ix2 r k))
    (hA : ∀ (p : Fin 5000) (r : Fin 50000) (k : Fin 64), r.val = 5000 * t + p.val → AGGb (ix2 p k) = AGG (ix2 r k))
    (hI : ∀ (p : Fin 5000) (r : Fin 50000), r.val = 5000 * t + p.val → INVb (ix2 p (0 : Fin 1)) = INV (ix2 r (0 : Fin 1)))
    (hW : WCb = WC) (hB : Bb = B) (hWF : WFb = WF) (hBF : BFb = BF)
    (y : (⟨2, ![5000, 64]⟩ : Shape).Idx) (i : (⟨2, ![50000, 64]⟩ : Shape).Idx)
    (h0 : (i 0).val = 5000 * t + (y 0).val) (h1 : (i 1).val = (y 1).val) :
    Cert.SageSpec.out 5000 Xb AGGb INVb WCb Bb WFb BFb y = Cert.SageSpec.out 50000 X AGG INV WC B WF BF i := by
  subst hW hB hWF hBF
  obtain ⟨p, q, rfl⟩ : ∃ (p : Fin 5000) (q : Fin 64), y = ix2 p q := ⟨y 0, y 1, eq_ix2 y⟩
  obtain ⟨r, q', rfl⟩ : ∃ (r : Fin 50000) (q' : Fin 64), i = ix2 r q' := ⟨i 0, i 1, eq_ix2 i⟩
  have h0' : r.val = 5000 * t + p.val := h0
  obtain rfl : q' = q := Fin.ext h1
  show (∑ k : Fin 64, Cert.SageSpec.layer 5000 Xb AGGb INVb WCb Bb (ix2 p k) * WFb (ix2 k q')) + BFb (ix1 q')
    = (∑ k : Fin 64, Cert.SageSpec.layer 50000 X AGG INV WCb Bb (ix2 r k) * WFb (ix2 k q')) + BFb (ix1 q')
  congr 1
  refine Finset.sum_congr rfl fun k _ => ?_
  rw [Cert.SageSpec.layer_rows Xb AGGb INVb X AGG INV WCb Bb p r k (fun k => hX p r k h0') (fun k => hA p r k h0')
    (hI p r h0')]

/-! ## The first pallas_call -/

section First

variable (V : (c : Dev nD) → (b : Ref sig .tc) → Buf (Elt Ideal) ((c : Thread nD τ).loc b))

/-- The block index of every window at every grid point, decided over the ten points: the row-indexed windows
    and the output are at block (t, 0), the small arrays at block 0. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Window 0's block at point t holds rows 5000·t … 5000·t + 4999 of its array. -/
theorem rows0_0 (c : Dev nD) (t : Fin cfg0.N) (p : Fin 5000) (r : Fin 50000) (k : Fin 64)
    (hr : r.val = 5000 * t.val + p.val) :
    (iblk0 (F := Ideal) V c 0 t : FVec Ideal S5000x64 .f32) (ix2 p k) = (V c main_v0 : FVec Ideal S50000x64 .f32) (ix2 r k) := by
  obtain ⟨e0, e1, -⟩ := blockIndex0 t
  show V c main_v0 (((cfg0.win 0).blk t).view.emb (ix2 p k)) = V c main_v0 (ix2 r k)
  congr 1
  funext a
  apply Fin.ext
  match a with
  | ⟨0, _⟩ => show win0_0.index t (0 : Fin 2) * 5000 + 1 * p.val = r.val; omega
  | ⟨1, _⟩ => show win0_0.index t (1 : Fin 2) * 64 + 1 * k.val = k.val; omega

/-- Window 1's block at point t holds rows 5000·t … 5000·t + 4999 of its array. -/
theorem rows0_1 (c : Dev nD) (t : Fin cfg0.N) (p : Fin 5000) (r : Fin 50000) (k : Fin 64)
    (hr : r.val = 5000 * t.val + p.val) :
    (iblk0 (F := Ideal) V c 1 t : FVec Ideal S5000x64 .f32) (ix2 p k) = (V c main_v12 : FVec Ideal S50000x64 .f32) (ix2 r k) := by
  obtain ⟨-, -, e0, e1, -⟩ := blockIndex0 t
  show V c main_v12 (((cfg0.win 1).blk t).view.emb (ix2 p k)) = V c main_v12 (ix2 r k)
  congr 1
  funext a
  apply Fin.ext
  match a with
  | ⟨0, _⟩ => show win0_1.index t (0 : Fin 2) * 5000 + 1 * p.val = r.val; omega
  | ⟨1, _⟩ => show win0_1.index t (1 : Fin 2) * 64 + 1 * k.val = k.val; omega

/-- Window 2's block at point t holds rows 5000·t … 5000·t + 4999 of its one-column array. -/
theorem rows0_2 (c : Dev nD) (t : Fin cfg0.N) (p : Fin 5000) (r : Fin 50000)
    (hr : r.val = 5000 * t.val + p.val) :
    (iblk0 (F := Ideal) V c 2 t : FVec Ideal S5000x1 .f32) (ix2 p (0 : Fin 1))
      = (V c main_v8 : FVec Ideal S50000x1 .f32) (ix2 r (0 : Fin 1)) := by
  obtain ⟨-, -, -, -, e0, e1, -⟩ := blockIndex0 t
  show V c main_v8 (((cfg0.win 2).blk t).view.emb (ix2 p (0 : Fin 1))) = V c main_v8 (ix2 r (0 : Fin 1))
  congr 1
  funext a
  apply Fin.ext
  match a with
  | ⟨0, _⟩ => show win0_2.index t (0 : Fin 2) * 5000 + 1 * p.val = r.val; omega
  | ⟨1, _⟩ => show win0_2.index t (1 : Fin 2) * 1 + 1 * (0 : Fin 1).val = (0 : Fin 1).val; omega

/-- Window 3's block at every point is its whole array. -/
theorem whole0_3 (c : Dev nD) (t : Fin cfg0.N) :
    (iblk0 (F := Ideal) V c 3 t : FVec Ideal S128x64 .f32) = (V c main_v13 : FVec Ideal S128x64 .f32) := by
  obtain ⟨-, -, -, -, -, -, e0, e1, -⟩ := blockIndex0 t
  funext y
  show V c main_v13 (((cfg0.win 3).blk t).view.emb y) = V c main_v13 y
  congr 1
  funext a
  apply Fin.ext
  match a with
  | ⟨0, _⟩ => show win0_3.index t (0 : Fin 2) * 128 + 1 * (y 0).val = (y 0).val; omega
  | ⟨1, _⟩ => show win0_3.index t (1 : Fin 2) * 64 + 1 * (y 1).val = (y 1).val; omega

/-- Window 4's block at every point is its whole array. -/
theorem whole0_4 (c : Dev nD) (t : Fin cfg0.N) :
    (iblk0 (F := Ideal) V c 4 t : FVec Ideal S64 .f32) = (V c main_arg3 : FVec Ideal S64 .f32) := by
  obtain ⟨-, -, -, -, -, -, -, -, e0, -⟩ := blockIndex0 t
  funext y
  show V c main_arg3 (((cfg0.win 4).blk t).view.emb y) = V c main_arg3 y
  congr 1
  funext a
  apply Fin.ext
  match a with
  | ⟨0, _⟩ => show win0_4.index t (0 : Fin 1) * 64 + 1 * (y 0).val = (y 0).val; omega

/-- What point t writes back is block t of the first layer's output of the whole arrays. -/
theorem flushed0 (c : Dev nD) (t : Fin cfg0.N) :
    (dat0 (F := Ideal) V c).flushed 5 t
      = ((cfg0.win 5).blk t).view.read (Elt Ideal)
          (Cert.SageSpec.hidden 50000 (V c main_v0) (V c main_v12) (V c main_v8) (V c main_v13) (V c main_arg3)) := by
  show (cfg0.win 5).cut (grid0.coords t) ((dat0 V c).after 5 t) = _
  rw [after0_5]
  unfold out0_5
  rw [View.canon_unit_zero zeros2]
  simp only [View.ld_unit_zero (S := S5000x64) zeros2, View.ld_unit_zero (S := S5000x1) zeros2,
    View.ld_unit_zero (S := S128x64) zeros2, View.ld_unit_zero (S := S64) zeros1]
  rw [Cert.KernelIdeal.BlockValue.pay0_eq]
  obtain ⟨-, -, -, -, -, -, -, -, -, e0, e1⟩ := blockIndex0 t
  funext y
  show Cert.SageSpec.hidden 5000 (iblk0 V c 0 t) (iblk0 V c 1 t) (iblk0 V c 2 t) (iblk0 V c 3 t) (iblk0 V c 4 t)
      ((cfg0.win 5).xinj (grid0.coords t) y)
    = Cert.SageSpec.hidden 50000 (V c main_v0) (V c main_v12) (V c main_v8) (V c main_v13) (V c main_arg3)
      (((cfg0.win 5).blk t).view.emb y)
  refine hidden_rows (iblk0 V c 0 t) (iblk0 V c 1 t) (iblk0 V c 2 t) (V c main_v0) (V c main_v12) (V c main_v8)
    (iblk0 V c 3 t) (V c main_v13) (iblk0 V c 4 t) (V c main_arg3) t.val
    (fun p r k hr => rows0_0 V c t p r k hr) (fun p r k hr => rows0_1 V c t p r k hr)
    (fun p r hr => rows0_2 V c t p r hr) (whole0_3 V c t) (whole0_4 V c t)
    ((cfg0.win 5).xinj (grid0.coords t) y) (((cfg0.win 5).blk t).view.emb y) ?_ ?_
  · show win0_5.index t (0 : Fin 2) * 5000 + 1 * (y 0).val = 5000 * t.val + (y 0).val; omega
  · show win0_5.index t (1 : Fin 2) * 64 + 1 * (y 1).val = (y 1).val; omega

/-- An index of the output array is in point t's block iff each coordinate is in the block's range on its axis. -/
theorem mem_block0 (t : Fin cfg0.N) (i : S50000x64.Idx) :
    i ∈ ((cfg0.win 5).blk t).view.set
      ↔ ∀ a : Fin 2, win0_5.index t a * S5000x64.size a ≤ (i a).val
          ∧ (i a).val < win0_5.index t a * S5000x64.size a + S5000x64.size a := by
  show i ∈ ((View.whole main_v14).slice (win0_5.rect t)).set ↔ _
  rw [View.set_slice_whole, Rect.mem_set_unit]
  exact Iff.rfl

/-- Every row of the output array is in the block of the point its row number divided by 5000 names. -/
theorem covered0 (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 10 := N_0
  have ht : (i 0).val / 5000 < cfg0.N := by rw [hN]; omega
  obtain ⟨-, -, -, -, -, -, -, -, -, e0, e1⟩ := blockIndex0 ⟨(i 0).val / 5000, ht⟩
  refine ⟨⟨(i 0).val / 5000, ht⟩, flush0_5 _, ?_⟩
  rw [mem_block0]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 64 ≤ (i 1).val
      ∧ (i 1).val < win0_5.index ⟨(i 0).val / 5000, ht⟩ (1 : Fin 2) * 64 + 64
    rw [e1]; omega

end First

/-! ## The second pallas_call -/

section Second

variable (V : (c : Dev nD) → (b : Ref sig .tc) → Buf (Elt Ideal) ((c : Thread nD τ).loc b))

/-- The block index of every window at every grid point, decided over the ten points: the row-indexed windows
    and the output are at block (t, 0), the small arrays at block 0. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- Window 0's block at point t holds rows 5000·t … 5000·t + 4999 of its array. -/
theorem rows1_0 (c : Dev nD) (t : Fin cfg1.N) (p : Fin 5000) (r : Fin 50000) (k : Fin 64)
    (hr : r.val = 5000 * t.val + p.val) :
    (iblk1 (F := Ideal) V c 0 t : FVec Ideal S5000x64 .f32) (ix2 p k) = (V c main_v14 : FVec Ideal S50000x64 .f32) (ix2 r k) := by
  obtain ⟨e0, e1, -⟩ := blockIndex1 t
  show V c main_v14 (((cfg1.win 0).blk t).view.emb (ix2 p k)) = V c main_v14 (ix2 r k)
  congr 1
  funext a
  apply Fin.ext
  match a with
  | ⟨0, _⟩ => show win1_0.index t (0 : Fin 2) * 5000 + 1 * p.val = r.val; omega
  | ⟨1, _⟩ => show win1_0.index t (1 : Fin 2) * 64 + 1 * k.val = k.val; omega

/-- Window 1's block at point t holds rows 5000·t … 5000·t + 4999 of its array. -/
theorem rows1_1 (c : Dev nD) (t : Fin cfg1.N) (p : Fin 5000) (r : Fin 50000) (k : Fin 64)
    (hr : r.val = 5000 * t.val + p.val) :
    (iblk1 (F := Ideal) V c 1 t : FVec Ideal S5000x64 .f32) (ix2 p k) = (V c main_v18 : FVec Ideal S50000x64 .f32) (ix2 r k) := by
  obtain ⟨-, -, e0, e1, -⟩ := blockIndex1 t
  show V c main_v18 (((cfg1.win 1).blk t).view.emb (ix2 p k)) = V c main_v18 (ix2 r k)
  congr 1
  funext a
  apply Fin.ext
  match a with
  | ⟨0, _⟩ => show win1_1.index t (0 : Fin 2) * 5000 + 1 * p.val = r.val; omega
  | ⟨1, _⟩ => show win1_1.index t (1 : Fin 2) * 64 + 1 * k.val = k.val; omega

/-- Window 2's block at point t holds rows 5000·t … 5000·t + 4999 of its one-column array. -/
theorem rows1_2 (c : Dev nD) (t : Fin cfg1.N) (p : Fin 5000) (r : Fin 50000)
    (hr : r.val = 5000 * t.val + p.val) :
    (iblk1 (F := Ideal) V c 2 t : FVec Ideal S5000x1 .f32) (ix2 p (0 : Fin 1))
      = (V c main_v8 : FVec Ideal S50000x1 .f32) (ix2 r (0 : Fin 1)) := by
  obtain ⟨-, -, -, -, e0, e1, -⟩ := blockIndex1 t
  show V c main_v8 (((cfg1.win 2).blk t).view.emb (ix2 p (0 : Fin 1))) = V c main_v8 (ix2 r (0 : Fin 1))
  congr 1
  funext a
  apply Fin.ext
  match a with
  | ⟨0, _⟩ => show win1_2.index t (0 : Fin 2) * 5000 + 1 * p.val = r.val; omega
  | ⟨1, _⟩ => show win1_2.index t (1 : Fin 2) * 1 + 1 * (0 : Fin 1).val = (0 : Fin 1).val; omega

/-- Window 3's block at every point is its whole array. -/
theorem whole1_3 (c : Dev nD) (t : Fin cfg1.N) :
    (iblk1 (F := Ideal) V c 3 t : FVec Ideal S128x64 .f32) = (V c main_v19 : FVec Ideal S128x64 .f32) := by
  obtain ⟨-, -, -, -, -, -, e0, e1, -⟩ := blockIndex1 t
  funext y
  show V c main_v19 (((cfg1.win 3).blk t).view.emb y) = V c main_v19 y
  congr 1
  funext a
  apply Fin.ext
  match a with
  | ⟨0, _⟩ => show win1_3.index t (0 : Fin 2) * 128 + 1 * (y 0).val = (y 0).val; omega
  | ⟨1, _⟩ => show win1_3.index t (1 : Fin 2) * 64 + 1 * (y 1).val = (y 1).val; omega

/-- Window 4's block at every point is its whole array. -/
theorem whole1_4 (c : Dev nD) (t : Fin cfg1.N) :
    (iblk1 (F := Ideal) V c 4 t : FVec Ideal S64 .f32) = (V c main_arg6 : FVec Ideal S64 .f32) := by
  obtain ⟨-, -, -, -, -, -, -, -, e0, -⟩ := blockIndex1 t
  funext y
  show V c main_arg6 (((cfg1.win 4).blk t).view.emb y) = V c main_arg6 y
  congr 1
  funext a
  apply Fin.ext
  match a with
  | ⟨0, _⟩ => show win1_4.index t (0 : Fin 1) * 64 + 1 * (y 0).val = (y 0).val; omega

/-- Window 5's block at every point is its whole array. -/
theorem whole1_5 (c : Dev nD) (t : Fin cfg1.N) :
    (iblk1 (F := Ideal) V c 5 t : FVec Ideal S64x64 .f32) = (V c main_arg7 : FVec Ideal S64x64 .f32) := by
  obtain ⟨-, -, -, -, -, -, -, -, -, e0, e1, -⟩ := blockIndex1 t
  funext y
  show V c main_arg7 (((cfg1.win 5).blk t).view.emb y) = V c main_arg7 y
  congr 1
  funext a
  apply Fin.ext
  match a with
  | ⟨0, _⟩ => show win1_5.index t (0 : Fin 2) * 64 + 1 * (y 0).val = (y 0).val; omega
  | ⟨1, _⟩ => show win1_5.index t (1 : Fin 2) * 64 + 1 * (y 1).val = (y 1).val; omega

/-- Window 6's block at every point is its whole array. -/
theorem whole1_6 (c : Dev nD) (t : Fin cfg1.N) :
    (iblk1 (F := Ideal) V c 6 t : FVec Ideal S64 .f32) = (V c main_arg8 : FVec Ideal S64 .f32) := by
  obtain ⟨-, -, -, -, -, -, -, -, -, -, -, e0, -⟩ := blockIndex1 t
  funext y
  show V c main_arg8 (((cfg1.win 6).blk t).view.emb y) = V c main_arg8 y
  congr 1
  funext a
  apply Fin.ext
  match a with
  | ⟨0, _⟩ => show win1_6.index t (0 : Fin 1) * 64 + 1 * (y 0).val = (y 0).val; omega

/-- What point t writes back is block t of the second layer and final linear map of the whole arrays. -/
theorem flushed1 (c : Dev nD) (t : Fin cfg1.N) :
    (dat1 (F := Ideal) V c).flushed 7 t
      = ((cfg1.win 7).blk t).view.read (Elt Ideal)
          (Cert.SageSpec.out 50000 (V c main_v14) (V c main_v18) (V c main_v8) (V c main_v19) (V c main_arg6)
            (V c main_arg7) (V c main_arg8)) := by
  show (cfg1.win 7).cut (grid1.coords t) ((dat1 V c).after 7 t) = _
  rw [after1_7]
  unfold out1_7
  rw [View.canon_unit_zero zeros2]
  simp only [View.ld_unit_zero (S := S5000x64) zeros2, View.ld_unit_zero (S := S5000x1) zeros2,
    View.ld_unit_zero (S := S128x64) zeros2, View.ld_unit_zero (S := S64) zeros1,
    View.ld_unit_zero (S := S64x64) zeros2]
  rw [Cert.KernelIdeal.BlockValue.pay1_eq]
  obtain ⟨-, -, -, -, -, -, -, -, -, -, -, -, e0, e1⟩ := blockIndex1 t
  funext y
  show Cert.SageSpec.out 5000 (iblk1 V c 0 t) (iblk1 V c 1 t) (iblk1 V c 2 t) (iblk1 V c 3 t) (iblk1 V c 4 t)
      (iblk1 V c 5 t) (iblk1 V c 6 t) ((cfg1.win 7).xinj (grid1.coords t) y)
    = Cert.SageSpec.out 50000 (V c main_v14) (V c main_v18) (V c main_v8) (V c main_v19) (V c main_arg6)
      (V c main_arg7) (V c main_arg8) (((cfg1.win 7).blk t).view.emb y)
  refine out_rows (iblk1 V c 0 t) (iblk1 V c 1 t) (iblk1 V c 2 t) (V c main_v14) (V c main_v18) (V c main_v8)
    (iblk1 V c 3 t) (V c main_v19) (iblk1 V c 4 t) (V c main_arg6) (iblk1 V c 5 t) (V c main_arg7)
    (iblk1 V c 6 t) (V c main_arg8) t.val
    (fun p r k hr => rows1_0 V c t p r k hr) (fun p r k hr => rows1_1 V c t p r k hr)
    (fun p r hr => rows1_2 V c t p r hr) (whole1_3 V c t) (whole1_4 V c t) (whole1_5 V c t) (whole1_6 V c t)
    ((cfg1.win 7).xinj (grid1.coords t) y) (((cfg1.win 7).blk t).view.emb y) ?_ ?_
  · show win1_7.index t (0 : Fin 2) * 5000 + 1 * (y 0).val = 5000 * t.val + (y 0).val; omega
  · show win1_7.index t (1 : Fin 2) * 64 + 1 * (y 1).val = (y 1).val; omega

/-- An index of the output array is in point t's block iff each coordinate is in the block's range on its axis. -/
theorem mem_block1 (t : Fin cfg1.N) (i : S50000x64.Idx) :
    i ∈ ((cfg1.win 7).blk t).view.set
      ↔ ∀ a : Fin 2, win1_7.index t a * S5000x64.size a ≤ (i a).val
          ∧ (i a).val < win1_7.index t a * S5000x64.size a + S5000x64.size a := by
  show i ∈ ((View.whole main_v20).slice (win1_7.rect t)).set ↔ _
  rw [View.set_slice_whole, Rect.mem_set_unit]
  exact Iff.rfl

/-- Every row of the output array is in the block of the point its row number divided by 5000 names. -/
theorem covered1 (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  have hN : cfg1.N = 10 := N_1
  have ht : (i 0).val / 5000 < cfg1.N := by rw [hN]; omega
  obtain ⟨-, -, -, -, -, -, -, -, -, -, -, -, e0, e1⟩ := blockIndex1 ⟨(i 0).val / 5000, ht⟩
  refine ⟨⟨(i 0).val / 5000, ht⟩, flush1_7 _, ?_⟩
  rw [mem_block1]
  intro a
  match a with
  | ⟨0, _⟩ =>
    show win1_7.index ⟨(i 0).val / 5000, ht⟩ (0 : Fin 2) * 5000 ≤ (i 0).val
      ∧ (i 0).val < win1_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_7.index ⟨(i 0).val / 5000, ht⟩ (1 : Fin 2) * 64 ≤ (i 1).val
      ∧ (i 1).val < win1_7.index ⟨(i 0).val / 5000, ht⟩ (1 : Fin 2) * 64 + 64
    rw [e1]; omega

end Second

variable (V : (c : Dev nD) → (b : Ref sig .tc) → Buf (Elt Ideal) ((c : Thread nD τ).loc b))

/-- The first pallas_call's output array after its last grid point. -/
theorem final0 (c : Dev nD) :
    (dat0 (F := Ideal) V c).arrAt 5 cfg0.N
      = Cert.SageSpec.hidden 50000 (V c main_v0) (V c main_v12) (V c main_v8) (V c main_v13) (V c main_arg3) :=
  (dat0 (F := Ideal) V c).arrAt_eq_of_cover 5
    (Cert.SageSpec.hidden 50000 (V c main_v0) (V c main_v12) (V c main_v8) (V c main_v13) (V c main_arg3))
    (fun t _ => flushed0 V c t) covered0

/-- The second pallas_call's output array after its last grid point. -/
theorem final1 (c : Dev nD) :
    (dat1 (F := Ideal) V c).arrAt 7 cfg1.N
      = Cert.SageSpec.out 50000 (V c main_v14) (V c main_v18) (V c main_v8) (V c main_v19) (V c main_arg6)
          (V c main_arg7) (V c main_arg8) :=
  (dat1 (F := Ideal) V c).arrAt_eq_of_cover 7
    (Cert.SageSpec.out 50000 (V c main_v14) (V c main_v18) (V c main_v8) (V c main_v19) (V c main_arg6)
      (V c main_arg7) (V c main_arg8))
    (fun t _ => flushed1 V c t) covered1

end Cert.KernelIdeal.ArrayValue

end
-- ==== Proof.Entry.lean ====
/-
  What each pallas_call finds in its windows' arrays, and with it the program's result as a function of the argument
  arrays: the second call's output is the second layer and final linear map of the first call's output, which is the
  first layer of the looked-up rows; the scatter-sums, the reciprocal in-degree column and the stacked weights are the
  host functions of the arguments.
-/
import proofs.«406183_j91285234909245_3_alg».proof.Proof.HostStages
import proofs.«406183_j91285234909245_3_alg».proof.Proof.Final

set_option maxRecDepth 16384

noncomputable section

namespace Cert.KernelIdeal.Entry

open Cert.KernelIdeal Cert.KernelIdeal.Gen Cert.KernelIdeal.HostFns Cert.KernelIdeal.Stages
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A buffer that no operation of a stretch writes holds after the stretch what it held before. -/
local macro "unwritten" : tactic => `(tactic| (
  refine StableHlo.after_of_forall_not_mem _ _ (List.forall_iff_forall_mem.mp ?_)
  simp only [hostOps0, hostOps0_1, hostOps0_2, hostOps0_3, hostOps0_4, hostOps0_5, hostOps1, hostOps1_1, List.Forall,
    StableHlo.nullary_writes, StableHlo.unary_writes, StableHlo.binary_writes, StableHlo.ternary_writes, Finset.mem_singleton]
  repeat' apply And.intro
  all_goals exact StableHlo.devRef_ne_of_ne (by decide)))

/-- The looked-up embedding rows. -/
abbrev rows (c : Dev nD) : FVec F S50000x64 .f32 := takeN (m ((c.tc : Thread nD τ).loc main_arg0)) (m ((c.tc : Thread nD τ).loc main_arg9))

/-! ## The first call's windows -/

theorem rows_at4 (c : Dev nD) : W4 m ρ c (Proc.devRef .tc main_v0) = rows m c :=
  ((((by unwritten : W4 m ρ c (Proc.devRef .tc main_v0) = W3 m ρ c (Proc.devRef .tc main_v0))).trans (by unwritten : W3 m ρ c (Proc.devRef .tc main_v0) = W2 m ρ c (Proc.devRef .tc main_v0))).trans (by unwritten : W2 m ρ c (Proc.devRef .tc main_v0) = W1 m ρ c (Proc.devRef .tc main_v0))).trans (lookup_rows m ρ c)

theorem in0_x (c : Dev nD) : W6 m ρ c (Proc.devRef .tc main_v0) = rows m c :=
  (((by unwritten : W6 m ρ c (Proc.devRef .tc main_v0) = W5 m ρ c (Proc.devRef .tc main_v0))).trans (by unwritten : W5 m ρ c (Proc.devRef .tc main_v0) = W4 m ρ c (Proc.devRef .tc main_v0))).trans (rows_at4 m ρ c)

theorem in0_agg (c : Dev nD) :
    W6 m ρ c (Proc.devRef .tc main_v12) = aggregate (takeE (rows m c) (m ((c.tc : Thread nD τ).loc main_arg10))) (m ((c.tc : Thread nD τ).loc main_arg11)) := by
  rw [agg_at, edge_rows_at, rows_at4, arg10_at4, arg11_at5]

theorem in0_inv (c : Dev nD) : W6 m ρ c (Proc.devRef .tc main_v8) = invCol (m ((c.tc : Thread nD τ).loc main_arg11)) := by
  refine (((by unwritten : W6 m ρ c (Proc.devRef .tc main_v8) = W5 m ρ c (Proc.devRef .tc main_v8))).trans (by unwritten : W5 m ρ c (Proc.devRef .tc main_v8) = W4 m ρ c (Proc.devRef .tc main_v8))).trans ?_
  rw [inv_at, clipped_at, one_at, degree_at, arg11_at1]
  rfl

theorem in0_w (c : Dev nD) : W6 m ρ c (Proc.devRef .tc main_v13) = stack (m ((c.tc : Thread nD τ).loc main_arg1)) (m ((c.tc : Thread nD τ).loc main_arg2)) := by
  rw [stack_at, arg1_at5, arg2_at5]

/-! ## Between the calls -/

/-- The first call's output array. -/
abbrev hid (c : Dev nD) := (dat0 (V6 m ρ) c).arrAt 5 cfg0.N

theorem mid_h (c : Dev nD) : W7 m ρ c (Proc.devRef .tc main_v14) = hid m ρ c := W7_arr m ρ c 5

theorem mid_inv (c : Dev nD) : W7 m ρ c (Proc.devRef .tc main_v8) = invCol (m ((c.tc : Thread nD τ).loc main_arg11)) :=
  (W7_arr m ρ c 2).trans ((((dat0 (V6 m ρ) c).arrAt_in 2 rfl _).trans (A_eq0 (V6 m ρ) c 2)).trans (in0_inv m ρ c))

theorem mid_arg4 (c : Dev nD) : W7 m ρ c (Proc.devRef .tc main_arg4) = (m ((c.tc : Thread nD τ).loc main_arg4)) :=
  (W7_of_ne m ρ c main_arg4 (by decide)).trans (arg4_at6 m ρ c)
theorem mid_arg5 (c : Dev nD) : W7 m ρ c (Proc.devRef .tc main_arg5) = (m ((c.tc : Thread nD τ).loc main_arg5)) :=
  (W7_of_ne m ρ c main_arg5 (by decide)).trans (arg5_at6 m ρ c)
theorem mid_arg6 (c : Dev nD) : W7 m ρ c (Proc.devRef .tc main_arg6) = (m ((c.tc : Thread nD τ).loc main_arg6)) :=
  (W7_of_ne m ρ c main_arg6 (by decide)).trans (arg6_at6 m ρ c)
theorem mid_arg7 (c : Dev nD) : W7 m ρ c (Proc.devRef .tc main_arg7) = (m ((c.tc : Thread nD τ).loc main_arg7)) :=
  (W7_of_ne m ρ c main_arg7 (by decide)).trans (arg7_at6 m ρ c)
theorem mid_arg8 (c : Dev nD) : W7 m ρ c (Proc.devRef .tc main_arg8) = (m ((c.tc : Thread nD τ).loc main_arg8)) :=
  (W7_of_ne m ρ c main_arg8 (by decide)).trans (arg8_at6 m ρ c)
theorem mid_arg10 (c : Dev nD) : W7 m ρ c (Proc.devRef .tc main_arg10) = (m ((c.tc : Thread nD τ).loc main_arg10)) :=
  (W7_of_ne m ρ c main_arg10 (by decide)).trans (arg10_at6 m ρ c)
theorem mid_arg11 (c : Dev nD) : W7 m ρ c (Proc.devRef .tc main_arg11) = (m ((c.tc : Thread nD τ).loc main_arg11)) :=
  (W7_of_ne m ρ c main_arg11 (by decide)).trans (arg11_at6 m ρ c)

set_option maxHeartbeats 2000000 in
theorem edge_rows2_at (c : Dev nD) :
    W8 m ρ c (Proc.devRef .tc main_v15) = takeE (W7 m ρ c (Proc.devRef .tc main_v14)) (W7 m ρ c (Proc.devRef .tc main_arg10)) := by
  dsimp only [W8]
  generalize W7 m ρ c = V
  after_results_simp
  simp only [ofBuf_toBuf, of_v14, of_arg10, to_v15]
  rfl

set_option maxHeartbeats 2000000 in
theorem agg2_at (c : Dev nD) :
    W9 m ρ c (Proc.devRef .tc main_v18) = aggregate (W8 m ρ c (Proc.devRef .tc main_v15)) (W8 m ρ c (Proc.devRef .tc main_arg11)) := by
  dsimp only [W9]
  generalize W8 m ρ c = V
  after_results_simp
  try rfl

set_option maxHeartbeats 2000000 in
theorem stack2_at (c : Dev nD) :
    W9 m ρ c (Proc.devRef .tc main_v19) = stack (W8 m ρ c (Proc.devRef .tc main_arg4)) (W8 m ρ c (Proc.devRef .tc main_arg5)) := by
  dsimp only [W9]
  generalize W8 m ρ c = V
  after_results_simp
  try rfl

/-! ## The second call's windows -/

theorem in1_h (c : Dev nD) : V9 m ρ c main_v14 = hid m ρ c :=
  (((by unwritten : W9 m ρ c (Proc.devRef .tc main_v14) = W8 m ρ c (Proc.devRef .tc main_v14))).trans (by unwritten : W8 m ρ c (Proc.devRef .tc main_v14) = W7 m ρ c (Proc.devRef .tc main_v14))).trans (mid_h m ρ c)

theorem in1_agg (c : Dev nD) :
    V9 m ρ c main_v18 = aggregate (takeE (hid m ρ c) (m ((c.tc : Thread nD τ).loc main_arg10))) (m ((c.tc : Thread nD τ).loc main_arg11)) := by
  show W9 m ρ c (Proc.devRef .tc main_v18) = _
  rw [agg2_at, edge_rows2_at, mid_h, mid_arg10]
  rw [show W8 m ρ c (Proc.devRef .tc main_arg11) = W7 m ρ c (Proc.devRef .tc main_arg11) from by unwritten, mid_arg11]

theorem in1_inv (c : Dev nD) : V9 m ρ c main_v8 = invCol (m ((c.tc : Thread nD τ).loc main_arg11)) :=
  (((by unwritten : W9 m ρ c (Proc.devRef .tc main_v8) = W8 m ρ c (Proc.devRef .tc main_v8))).trans (by unwritten : W8 m ρ c (Proc.devRef .tc main_v8) = W7 m ρ c (Proc.devRef .tc main_v8))).trans (mid_inv m ρ c)

theorem in1_w (c : Dev nD) : V9 m ρ c main_v19 = stack (m ((c.tc : Thread nD τ).loc main_arg4)) (m ((c.tc : Thread nD τ).loc main_arg5)) := by
  show W9 m ρ c (Proc.devRef .tc main_v19) = _
  rw [stack2_at]
  rw [show W8 m ρ c (Proc.devRef .tc main_arg4) = W7 m ρ c (Proc.devRef .tc main_arg4) from by unwritten, mid_arg4]
  rw [show W8 m ρ c (Proc.devRef .tc main_arg5) = W7 m ρ c (Proc.devRef .tc main_arg5) from by unwritten, mid_arg5]

theorem in1_arg6 (c : Dev nD) : V9 m ρ c main_arg6 = (m ((c.tc : Thread nD τ).loc main_arg6)) :=
  (((by unwritten : W9 m ρ c (Proc.devRef .tc main_arg6) = W8 m ρ c (Proc.devRef .tc main_arg6))).trans (by unwritten : W8 m ρ c (Proc.devRef .tc main_arg6) = W7 m ρ c (Proc.devRef .tc main_arg6))).trans (mid_arg6 m ρ c)
theorem in1_arg7 (c : Dev nD) : V9 m ρ c main_arg7 = (m ((c.tc : Thread nD τ).loc main_arg7)) :=
  (((by unwritten : W9 m ρ c (Proc.devRef .tc main_arg7) = W8 m ρ c (Proc.devRef .tc main_arg7))).trans (by unwritten : W8 m ρ c (Proc.devRef .tc main_arg7) = W7 m ρ c (Proc.devRef .tc main_arg7))).trans (mid_arg7 m ρ c)
theorem in1_arg8 (c : Dev nD) : V9 m ρ c main_arg8 = (m ((c.tc : Thread nD τ).loc main_arg8)) :=
  (((by unwritten : W9 m ρ c (Proc.devRef .tc main_arg8) = W8 m ρ c (Proc.devRef .tc main_arg8))).trans (by unwritten : W8 m ρ c (Proc.devRef .tc main_arg8) = W7 m ρ c (Proc.devRef .tc main_arg8))).trans (mid_arg8 m ρ c)

end Cert.KernelIdeal.Entry

/-! ## The result -/

namespace Cert.KernelIdeal.Entry

open Cert.KernelIdeal Cert.KernelIdeal.Gen Cert.KernelIdeal.HostFns
open Idealize.ShloMosaic Idealize.ShloMosaic.TcCoe Idealize.SL.Sem

variable (m : (ℓ : Loc nD τ sig) → Buf (Elt Ideal) ℓ) (ρ : Dev nD → PrngReg)

/-- The first call's output: the first layer, ReLU'd, of the looked-up rows. -/
theorem hid_eq (c : Dev nD) :
    hid m ρ c = Cert.SageSpec.hidden 50000 (rows m c) (aggregate (takeE (rows m c) (m ((c.tc : Thread nD τ).loc main_arg10))) (m ((c.tc : Thread nD τ).loc main_arg11)))
      (invCol (m ((c.tc : Thread nD τ).loc main_arg11))) (stack (m ((c.tc : Thread nD τ).loc main_arg1)) (m ((c.tc : Thread nD τ).loc main_arg2))) (m ((c.tc : Thread nD τ).loc main_arg3)) := by
  refine (Cert.KernelIdeal.ArrayValue.final0 (V6 m ρ) c).trans ?_
  show Cert.SageSpec.hidden 50000 (W6 m ρ c (Proc.devRef .tc main_v0)) (W6 m ρ c (Proc.devRef .tc main_v12)) (W6 m ρ c (Proc.devRef .tc main_v8))
      (W6 m ρ c (Proc.devRef .tc main_v13)) (W6 m ρ c (Proc.devRef .tc main_arg3)) = _
  rw [in0_x, in0_agg, in0_inv, in0_w, Stages.arg3_at6]

/-- The program's result buffer at the end: the second layer and the final linear map of the first call's output. -/
theorem result_value (c : Dev nD) :
    W10 m ρ c (Proc.devRef .tc main_v20)
      = Cert.SageSpec.out 50000 (hid m ρ c) (aggregate (takeE (hid m ρ c) (m ((c.tc : Thread nD τ).loc main_arg10))) (m ((c.tc : Thread nD τ).loc main_arg11)))
          (invCol (m ((c.tc : Thread nD τ).loc main_arg11))) (stack (m ((c.tc : Thread nD τ).loc main_arg4)) (m ((c.tc : Thread nD τ).loc main_arg5))) (m ((c.tc : Thread nD τ).loc main_arg6)) (m ((c.tc : Thread nD τ).loc main_arg7)) (m ((c.tc : Thread nD τ).loc main_arg8)) := by
  refine (W10_arr m ρ c 7).trans ((Cert.KernelIdeal.ArrayValue.final1 (V9 m ρ) c).trans ?_)
  rw [in1_h, in1_agg, in1_inv, in1_w, in1_arg6, in1_arg7, in1_arg8]

end Cert.KernelIdeal.Entry

end
-- ==== Proof.Domain.lean ====
/-
  What the precondition says of the two index inputs, and what it buys: with every node index and every edge source
  in 0 … 49999, no index is negative and none is out of range, so the kernel program's filled lookups are the plain
  lookups at the wrapped indices.
-/
import proofs.«406183_j91285234909245_3_alg».proof.Defs
import proofs.«406183_j91285234909245_3_alg».proof.Proof.Gen.Pre_finite_inputs
import proofs.«406183_j91285234909245_3_alg».proof.Proof.HostFns
import Idealize.ShloMosaic.Lib.ReduceAll
import Idealize.ShloMosaic.Lib.StableHlo.Predicate
import Idealize.ShloMosaic.Lib.ValueIdx

noncomputable section

namespace Cert.KernelIdeal.Domain

open Cert.KernelIdeal Idealize.ShloMosaic Idealize.SL.Sem

/-! ## Words and folds -/

/-- The rank-0 shape has one index. -/
instance subsingleton_scalar_idx : Subsingleton Cert.Pre_finite_inputs.S_.Idx :=
  ⟨fun a b => funext fun d => d.elim0⟩

theorem toInt_zero : (0#32 : BitVec 32).toInt = 0 := by decide
theorem toInt_50000 : (50000#32 : BitVec 32).toInt = 50000 := by decide
theorem toInt_49999 : (49999#32 : BitVec 32).toInt = 49999 := by decide

/-- A word that tests 0 ≤ w and w < 50000, both signed, lies in 0 … 49999. -/
theorem range_of_tests (w : BitVec 32) (h0 : IntOp.cmpi .sge w 0#32 = 1#1) (h1 : IntOp.cmpi .slt w 50000#32 = 1#1) :
    0 ≤ w.toInt ∧ w.toInt < 50000 := by
  rw [IntOp.cmpi_sge, toInt_zero] at h0
  rw [IntOp.cmpi_slt, toInt_50000] at h1
  exact ⟨h0, h1⟩

/-- A word in 0 … 49999 does not test negative. -/
theorem slt_zero_of_range (w : BitVec 32) (h : 0 ≤ w.toInt) : IntOp.cmpi .slt w 0#32 = 0#1 := by
  apply ValueIdx.eq_zero_of_ne_one
  intro hh
  rw [IntOp.cmpi_slt, toInt_zero] at hh
  omega

/-- A word in 0 … 49999 passes both tests 0 ≤ w and w ≤ 49999. -/
theorem tests_of_range (w : BitVec 32) (h : 0 ≤ w.toInt ∧ w.toInt < 50000) :
    IntOp.andi (IntOp.cmpi .sge w 0#32) (IntOp.cmpi .sle w 49999#32) = 1#1 := by
  rw [IntOp.andi_eq_one, IntOp.cmpi_sge, IntOp.cmpi_sle, toInt_zero, toInt_49999]
  omega

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi 1#1 (f a) = 1#1 := by rw [hf a]; decide
    rw [List.foldl_cons, e]
    exact foldl_andi_ones f hf l

/-- A reduction by `and` from 1 of an array of ones is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x hx _

/-- A broadcast of an array that reads c everywhere reads c everywhere. -/
theorem bcast_of_all {α : Type} {s t : Shape} (dims : Fin s.rank → Fin t.rank) (h : s.BroadcastsInDim t dims)
    (x : s.Idx → α) (c : α) (hx : ∀ k, x k = c) (j : t.Idx) : broadcastInDim t dims h x j = c := by
  unfold broadcastInDim
  exact hx _

/-! ## The precondition, part by part

The printed predicate is a chain of `and`s of eleven `all`s, cut in four definitions each ending in the call of the
next. Read from the last part back: a part that is 1 had its incoming conjunction 1 and each of its own `all`s 1, and an
`all` that is 1 had a 1 at every index. -/

section Pre

variable {G : FTy → Type} [FloatOps G] [Cert.Pre_finite_inputs.Facts]

theorem part3_decode (a10 : IVec Cert.Pre_finite_inputs.S800000 32) (v : IVec Cert.Pre_finite_inputs.S_ 1)
    (j : Cert.Pre_finite_inputs.S_.Idx) (h : Cert.Pre_finite_inputs.fn_part3 (F := G) a10 v j = 1#1) :
    v j = 1#1 ∧ ∀ i, 0 ≤ (a10 i).toInt ∧ (a10 i).toInt < 50000 := by
  dsimp only [Cert.Pre_finite_inputs.fn_part3] at h
  obtain ⟨hv, hr⟩ := IntOp.andi_eq_one.1 h
  refine ⟨hv, fun i => ?_⟩
  have hi := Host.reduce_andi_all _ _ _ _ j hr i
  obtain ⟨h0, h1⟩ := IntOp.andi_eq_one.1 hi
  exact range_of_tests _ h0 h1

theorem part2_decode (a7 : FVec G Cert.Pre_finite_inputs.S64x64 .f32) (a8 : FVec G Cert.Pre_finite_inputs.S64 .f32)
    (a9 : IVec Cert.Pre_finite_inputs.S50000 32) (a10 : IVec Cert.Pre_finite_inputs.S800000 32)
    (v : IVec Cert.Pre_finite_inputs.S_ 1) (j : Cert.Pre_finite_inputs.S_.Idx)
    (h : Cert.Pre_finite_inputs.fn_part2 (F := G) a7 a8 a9 a10 v j = 1#1) :
    (∀ i, 0 ≤ (a9 i).toInt ∧ (a9 i).toInt < 50000) ∧ (∀ i, 0 ≤ (a10 i).toInt ∧ (a10 i).toInt < 50000) := by
  dsimp only [Cert.Pre_finite_inputs.fn_part2] at h
  obtain ⟨hv, h10⟩ := part3_decode _ _ j h
  obtain ⟨-, hr⟩ := IntOp.andi_eq_one.1 hv
  refine ⟨fun i => ?_, h10⟩
  have hi := Host.reduce_andi_all _ _ _ _ j hr i
  obtain ⟨h0, h1⟩ := IntOp.andi_eq_one.1 hi
  exact range_of_tests _ h0 h1

theorem part1_decode (a4 a5 : FVec G Cert.Pre_finite_inputs.S64x64 .f32) (a6 : FVec G Cert.Pre_finite_inputs.S64 .f32)
    (a7 : FVec G Cert.Pre_finite_inputs.S64x64 .f32) (a8 : FVec G Cert.Pre_finite_inputs.S64 .f32)
    (a9 : IVec Cert.Pre_finite_inputs.S50000 32) (a10 : IVec Cert.Pre_finite_inputs.S800000 32)
    (v : IVec Cert.Pre_finite_inputs.S_ 1) (v16 : IVec Cert.Pre_finite_inputs.S64 1) (j : Cert.Pre_finite_inputs.S_.Idx)
    (h : Cert.Pre_finite_inputs.fn_part1 (F := G) a4 a5 a6 a7 a8 a9 a10 v v16 j = 1#1) :
    (∀ i, 0 ≤ (a9 i).toInt ∧ (a9 i).toInt < 50000) ∧ (∀ i, 0 ≤ (a10 i).toInt ∧ (a10 i).toInt < 50000) := by
  dsimp only [Cert.Pre_finite_inputs.fn_part1] at h
  exact part2_decode _ _ _ _ _ j h

theorem fn_decode (a0 : FVec G Cert.Pre_finite_inputs.S50000x64 .f32) (a1 a2 : FVec G Cert.Pre_finite_inputs.S64x64 .f32)
    (a3 : FVec G Cert.Pre_finite_inputs.S64 .f32) (a4 a5 : FVec G Cert.Pre_finite_inputs.S64x64 .f32)
    (a6 : FVec G Cert.Pre_finite_inputs.S64 .f32) (a7 : FVec G Cert.Pre_finite_inputs.S64x64 .f32)
    (a8 : FVec G Cert.Pre_finite_inputs.S64 .f32) (a9 : IVec Cert.Pre_finite_inputs.S50000 32)
    (a10 a11 : IVec Cert.Pre_finite_inputs.S800000 32) (j : Cert.Pre_finite_inputs.S_.Idx)
    (h : Cert.Pre_finite_inputs.fn (F := G) a0 a1 a2 a3 a4 a5 a6 a7 a8 a9 a10 a11 j = 1#1) :
    (∀ i, 0 ≤ (a9 i).toInt ∧ (a9 i).toInt < 50000) ∧ (∀ i, 0 ≤ (a10 i).toInt ∧ (a10 i).toInt < 50000) := by
  dsimp only [Cert.Pre_finite_inputs.fn] at h
  exact part1_decode _ _ _ _ _ _ _ _ _ j h

end Pre

/-- Under the precondition every node index and every edge source lies in 0 … 49999 (as a signed word). -/
theorem ids_in_range [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, 0 ≤ (m ((c.tc : Thread nD τ).loc main_arg9) i).toInt ∧ (m ((c.tc : Thread nD τ).loc main_arg9) i).toInt < 50000)
    ∧ (∀ i, 0 ≤ (m ((c.tc : Thread nD τ).loc main_arg10) i).toInt ∧ (m ((c.tc : Thread nD τ).loc main_arg10) i).toInt < 50000) := by
  have h0 := congrFun (h c) ValueIdx.ix0
  exact fn_decode _ _ _ _ _ _ _ _ _ _ _ _ ValueIdx.ix0 h0

variable {F : FTy → Type} [FloatOps F] [Cert.KernelIdeal.Facts]

/-! ## The lookups with every index in range -/

/-- No index is negative, so wrapping changes none. -/
theorem wrapN_eq (ids : IVec S50000 32) (h : ∀ i, 0 ≤ (ids i).toInt ∧ (ids i).toInt < 50000) : HostFns.wrapN ids = ids := by
  funext i
  show Scalar.select (IntOp.cmpi .slt (ids i) 0#32) _ (ids i) = ids i
  rw [slt_zero_of_range _ (h i).1, ValueIdx.select_zero]

/-- Every entry of the column of start indices is one of the indices, so it lies in 0 … 49999. -/
theorem colN_range (ids : IVec S50000 32) (h : ∀ i, 0 ≤ (ids i).toInt ∧ (ids i).toInt < 50000) (j : S50000x1.Idx) :
    0 ≤ (HostFns.colN ids j).toInt ∧ (HostFns.colN ids j).toInt < 50000 := by
  unfold HostFns.colN broadcastInDim
  rw [wrapN_eq ids h]
  exact h _

/-- The row mask is all ones. -/
theorem inRangeN_eq_ones (ids : IVec S50000 32) (h : ∀ i, 0 ≤ (ids i).toInt ∧ (ids i).toInt < 50000) :
    HostFns.inRangeN ids = fun _ => 1#1 := by
  funext i
  unfold HostFns.inRangeN
  refine bcast_of_all _ _ _ _ (fun k => reduce_andi_ones _ _ _ _ (fun j => ?_) rfl k) i
  exact tests_of_range _ (colN_range ids h j)

/-- With every node index in range the filled lookup is the plain one. -/
theorem takeN_eq (x : FVec F S50000x64 .f32) (ids : IVec S50000 32)
    (h : ∀ i, 0 ≤ (ids i).toInt ∧ (ids i).toInt < 50000) :
    HostFns.takeN x ids = HostFns.gatherN x ids := by
  funext i
  unfold HostFns.takeN
  rw [ValueIdx.select_apply, inRangeN_eq_ones ids h, ValueIdx.select_one]

theorem wrapE_eq (src : IVec S800000 32) (h : ∀ i, 0 ≤ (src i).toInt ∧ (src i).toInt < 50000) : HostFns.wrapE src = src := by
  funext i
  show Scalar.select (IntOp.cmpi .slt (src i) 0#32) _ (src i) = src i
  rw [slt_zero_of_range _ (h i).1, ValueIdx.select_zero]

theorem colE_range (src : IVec S800000 32) (h : ∀ i, 0 ≤ (src i).toInt ∧ (src i).toInt < 50000) (j : S800000x1.Idx) :
    0 ≤ (HostFns.colE src j).toInt ∧ (HostFns.colE src j).toInt < 50000 := by
  unfold HostFns.colE broadcastInDim
  rw [wrapE_eq src h]
  exact h _

theorem inRangeE_eq_ones (src : IVec S800000 32) (h : ∀ i, 0 ≤ (src i).toInt ∧ (src i).toInt < 50000) :
    HostFns.inRangeE src = fun _ => 1#1 := by
  funext i
  unfold HostFns.inRangeE
  refine bcast_of_all _ _ _ _ (fun k => reduce_andi_ones _ _ _ _ (fun j => ?_) rfl k) i
  exact tests_of_range _ (colE_range src h j)

/-- With every edge source in range the filled lookup is the plain one. -/
theorem takeE_eq (y : FVec F S50000x64 .f32) (src : IVec S800000 32)
    (h : ∀ i, 0 ≤ (src i).toInt ∧ (src i).toInt < 50000) :
    HostFns.takeE y src = HostFns.gatherE y src := by
  funext i
  unfold HostFns.takeE
  rw [ValueIdx.select_apply, inRangeE_eq_ones src h, ValueIdx.select_one]

end Cert.KernelIdeal.Domain

end
-- ==== Proof.RefFns.lean ====
/-
  The reference program as pure functions of the arrays, spelt as its operations are printed: the row lookups at
  wrapped indices, the in-degree clipped at one, the scatter-sum of edge rows, one mean-aggregating layer
  x·W_self + (agg / deg)·W_neigh + b, the ReLU, the final linear map, and their composition.
-/
import proofs.«406183_j91285234909245_3_alg».proof.Proof.Gen.ReferenceIdeal.Run

noncomputable section

namespace Cert.ReferenceIdeal.RefFns

open Cert.ReferenceIdeal Idealize.ShloMosaic
open Cert.ReferenceIdeal.Facts₀

variable {F : FTy → Type} [FloatOps F] [Facts]

def wrapN (ids : IVec S50000 32) : IVec S50000 32 :=
  select (cmpi .slt ids (broadcastInDim S50000 ![] bcast_S_S50000 (constantI S_ 32 0#32)))
    (addi ids (broadcastInDim S50000 ![] bcast_S_S50000 (constantI S_ 32 50000#32))) ids

def gatherN (x : FVec F S50000x64 .f32) (ids : IVec S50000 32) : FVec F S50000x64 .f32 :=
  Host.gather gather_S50000x64_S50000x1_S50000x64_1_0_n_n_0_1_164 x
    (broadcastInDim S50000x1 ![0] bcast_S50000_S50000x1_0 (wrapN ids))

def wrapE (src : IVec S800000 32) : IVec S800000 32 :=
  select (cmpi .slt src (broadcastInDim S800000 ![] bcast_S_S800000 (constantI S_ 32 0#32)))
    (addi src (broadcastInDim S800000 ![] bcast_S_S800000 (constantI S_ 32 50000#32))) src

def gatherE (h : FVec F S50000x64 .f32) (src : IVec S800000 32) : FVec F S800000x64 .f32 :=
  Host.gather gather_S50000x64_S800000x1_S800000x64_1_0_n_n_0_1_164 h
    (broadcastInDim S800000x1 ![0] bcast_S800000_S800000x1_0 (wrapE src))

def colDst (dst : IVec S800000 32) : IVec S800000x1 32 :=
  broadcastInDim S800000x1 ![0] bcast_S800000_S800000x1_0 dst

def degree (dst : IVec S800000 32) : FVec F S50000 .f32 :=
  Host.scatterAdd scatter_S50000_S800000x1_S800000_n_0_0_1
    (broadcastInDim S50000 ![] bcast_S_S50000 (constant S_ .f32 0x00000000#32)) (colDst dst)
    (broadcastInDim S800000 ![] bcast_S_S800000 (constant S_ .f32 0x3F800000#32))

def clipOne (d : FVec F S50000 .f32) : FVec F S50000 .f32 :=
  maximumf (broadcastInDim S50000 ![] bcast_S_S50000 (id (constant S_ .f32 0x3F800000#32))) d

def aggregate (y : FVec F S800000x64 .f32) (dst : IVec S800000 32) : FVec F S50000x64 .f32 :=
  Host.scatterAdd scatter_S50000x64_S800000x1_S800000x64_1_0_0_1
    (broadcastInDim S50000x64 ![] bcast_S_S50000x64 (constant S_ .f32 0x00000000#32)) (colDst dst) y

/-- A vector of 64 repeated down 50000 rows. -/
def rowsOf (b : FVec F S64 .f32) : FVec F S50000x64 .f32 :=
  broadcastInDim S50000x64 ![0, 1] bcast_S1x64_S50000x64_0_1 (broadcastInDim S1x64 ![1] bcast_S64_S1x64_1 b)

/-- A vector of 50000 repeated across 64 columns. -/
def colsOf (c : FVec F S50000 .f32) : FVec F S50000x64 .f32 :=
  broadcastInDim S50000x64 ![0, 1] bcast_S50000x1_S50000x64_0_1 (broadcastInDim S50000x1 ![0] bcast_S50000_S50000x1_0 c)

/-- One layer: x·W_self + (agg / c)·W_neigh + b. -/
def layer (x agg : FVec F S50000x64 .f32) (c : FVec F S50000 .f32) (ws wn : FVec F S64x64 .f32) (b : FVec F S64 .f32) :
    FVec F S50000x64 .f32 :=
  addf (addf (Host.dotGeneral dot_S50000x64_S64x64_S50000x64_1_0_0_1_n_n none x ws)
      (Host.dotGeneral dot_S50000x64_S64x64_S50000x64_1_0_0_1_n_n none (Host.divf agg (colsOf c)) wn)) (rowsOf b)

def relu (y : FVec F S50000x64 .f32) : FVec F S50000x64 .f32 :=
  maximumf y (broadcastInDim S50000x64 ![] bcast_S_S50000x64 (constant S_ .f32 0x00000000#32))

/-- The final linear map y·W + b. -/
def fc (y : FVec F S50000x64 .f32) (w : FVec F S64x64 .f32) (b : FVec F S64 .f32) : FVec F S50000x64 .f32 :=
  addf (Host.dotGeneral dot_S50000x64_S64x64_S50000x64_1_0_0_1_n_n none y w) (rowsOf b)

/-- The whole reference: lookup, two layers with a ReLU between, final linear map. -/
def result (embed : FVec F S50000x64 .f32) (w1s w1n : FVec F S64x64 .f32) (b1 : FVec F S64 .f32)
    (w2s w2n : FVec F S64x64 .f32) (b2 : FVec F S64 .f32) (wf : FVec F S64x64 .f32) (bf : FVec F S64 .f32)
    (ids : IVec S50000 32) (src dst : IVec S800000 32) : FVec F S50000x64 .f32 :=
  let x := gatherN embed ids
  let c := clipOne (degree dst)
  let h := relu (layer x (aggregate (gatherE x src) dst) c w1s w1n b1)
  fc (layer h (aggregate (gatherE h src) dst) c w2s w2n b2) wf bf

set_option maxRecDepth 8192 in
/-- The generated run's composed result term is this composition. -/
theorem res_eq (m : (ℓ : Loc nD τ sig) → Buf (Elt F) ℓ) (c : Dev nD) :
    Cert.ReferenceIdeal.Value.res_main_v59 m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  unfold Cert.ReferenceIdeal.Value.res_main_v59
  rfl

end Cert.ReferenceIdeal.RefFns

end
-- ==== Proof.LayerLaw.lean ====
/-
  The law that joins the two programs: on the extended reals the kernel's layer — one contraction over the stacked
  128 weights of the row [x, agg · (1/c)] — is the reference's x·W_self + (agg / c)·W_neigh + b, because a sum over
  128 splits into its two halves and, for c ≠ 0, a · (1/c) = a / c. The ReLU and the final linear map are the same
  operations on both sides.
-/
import proofs.«406183_j91285234909245_3_alg».proof.Proof.Spec
import proofs.«406183_j91285234909245_3_alg».proof.Proof.HostFns
import proofs.«406183_j91285234909245_3_alg».proof.Proof.RefFns
import proofs.«406183_j91285234909245_3_alg».proof.Proof.Gen.KernelIdeal
import proofs.«406183_j91285234909245_3_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

namespace Cert.SageLaw

open Idealize.ShloMosaic Idealize.ShloMosaic.ValueIdx

abbrev SNx64 : Shape := ⟨2, ![50000, 64]⟩
abbrev SN : Shape := ⟨1, ![50000]⟩
abbrev SWt : Shape := ⟨2, ![64, 64]⟩
abbrev SB : Shape := ⟨1, ![64]⟩

/-- The word 0x3F800000 denotes one. -/
theorem one_word : Ideal.ofBits .f32 0x3F800000#32 = (1 : EReal) := by
  simp [Ideal.ofBits, Ideal.ieee, -EReal.coe_mul]
  norm_num

/-- The reference's contraction of a [50000,64] array with a [64,64] matrix, at an index, is the plain sum over the
    64 shared positions. -/
theorem dot_apply (l : FVec Ideal SNx64 .f32) (w : FVec Ideal SWt .f32) (r : Fin 50000) (j : Fin 64) :
    Host.dotGeneral (F := Ideal) Cert.ReferenceIdeal.dot_S50000x64_S64x64_S50000x64_1_0_0_1_n_n none l w (ix2 r j)
      = ∑ k : Fin 64, l (ix2 r k) * w (ix2 k j) := by
  simp only [Host.dotGeneral]
  rw [Ideal.dotGeneral_apply,
    ← Equiv.sum_comp (ValueIdx.contrEquiv1 Cert.ReferenceIdeal.dot_S50000x64_S64x64_S50000x64_1_0_0_1_n_n 64 rfl rfl).symm]
  refine Finset.sum_congr rfl fun k _ => ?_
  have hk := ValueIdx.contrEquiv1_symm_val Cert.ReferenceIdeal.dot_S50000x64_S64x64_S50000x64_1_0_0_1_n_n 64 rfl rfl k
  have el : Cert.ReferenceIdeal.dot_S50000x64_S64x64_S50000x64_1_0_0_1_n_n.lhsIdx (ix2 r j)
      ((ValueIdx.contrEquiv1 Cert.ReferenceIdeal.dot_S50000x64_S64x64_S50000x64_1_0_0_1_n_n 64 rfl rfl).symm k) = ix2 r k :=
    funext fun a => Fin.ext (by
      match a with
      | ⟨0, _⟩ => exact Cert.ReferenceIdeal.Read.lhs_main_v25_0 _ _
      | ⟨1, _⟩ => exact (Cert.ReferenceIdeal.Read.lhs_main_v25_1 _ _).trans hk)
  have er : Cert.ReferenceIdeal.dot_S50000x64_S64x64_S50000x64_1_0_0_1_n_n.rhsIdx (ix2 r j)
      ((ValueIdx.contrEquiv1 Cert.ReferenceIdeal.dot_S50000x64_S64x64_S50000x64_1_0_0_1_n_n 64 rfl rfl).symm k) = ix2 k j :=
    funext fun a => Fin.ext (by
      match a with
      | ⟨0, _⟩ => exact (Cert.ReferenceIdeal.Read.rhs_main_v25_0 _ _).trans hk
      | ⟨1, _⟩ => exact Cert.ReferenceIdeal.Read.rhs_main_v25_1 _ _)
  rw [el, er]

/-- A vector of 64 repeated down the rows reads its column's entry. -/
theorem rowsOf_apply (b : FVec Ideal SB .f32) (r : Fin 50000) (j : Fin 64) :
    Cert.ReferenceIdeal.RefFns.rowsOf (F := Ideal) b (ix2 r j) = b (ix1 j) := by
  unfold Cert.ReferenceIdeal.RefFns.rowsOf
  rw [broadcastInDim_apply _ _ _ (ix2 r j) (ix2 (0 : Fin 1) j) (fun a => match a with
      | ⟨0, _⟩ => by show 0 = if (1 : Nat) = 1 then 0 else r.val; rw [if_pos rfl]
      | ⟨1, _⟩ => by show j.val = if (64 : Nat) = 1 then 0 else j.val; rw [if_neg (by decide)]),
    broadcastInDim_apply _ _ _ (ix2 (0 : Fin 1) j) (ix1 j) (fun a => match a with
      | ⟨0, _⟩ => by show j.val = if (64 : Nat) = 1 then 0 else j.val; rw [if_neg (by decide)])]

/-- A vector of 50000 repeated across the columns reads its row's entry. -/
theorem colsOf_apply (c : FVec Ideal SN .f32) (r : Fin 50000) (j : Fin 64) :
    Cert.ReferenceIdeal.RefFns.colsOf (F := Ideal) c (ix2 r j) = c (ix1 r) := by
  unfold Cert.ReferenceIdeal.RefFns.colsOf
  rw [broadcastInDim_apply _ _ _ (ix2 r j) (ix2 r (0 : Fin 1)) (fun a => match a with
      | ⟨0, _⟩ => by show r.val = if (50000 : Nat) = 1 then 0 else r.val; rw [if_neg (by decide)]
      | ⟨1, _⟩ => by show 0 = if (1 : Nat) = 1 then 0 else j.val; rw [if_pos rfl]),
    broadcastInDim_apply _ _ _ (ix2 r (0 : Fin 1)) (ix1 r) (fun a => match a with
      | ⟨0, _⟩ => by show r.val = if (50000 : Nat) = 1 then 0 else r.val; rw [if_neg (by decide)])]

/-- The reciprocal column at row r is 1 / c r. -/
theorem invColOf_apply (c : FVec Ideal SN .f32) (r : Fin 50000) :
    Cert.KernelIdeal.HostFns.invColOf (F := Ideal) c (ix2 r (0 : Fin 1)) = Ideal.div 1 (c (ix1 r)) := by
  unfold Cert.KernelIdeal.HostFns.invColOf
  rw [broadcastInDim_apply _ _ _ (ix2 r (0 : Fin 1)) (ix1 r) (fun a => match a with
      | ⟨0, _⟩ => by show r.val = if (50000 : Nat) = 1 then 0 else r.val; rw [if_neg (by decide)])]
  show Ideal.div (broadcastInDim _ _ _ _ (ix1 r)) (c (ix1 r)) = _
  rw [broadcastInDim_apply _ _ _ (ix1 r) ix0 (fun a => a.elim0)]
  show Ideal.div (Ideal.ofBits .f32 0x3F800000#32) (c (ix1 r)) = _
  rw [one_word]

/-- The stacked matrix at a row below 64 is the first matrix. -/
theorem stack_apply_left (ws wn : FVec Ideal SWt .f32) (k j : Fin 64) :
    Cert.KernelIdeal.HostFns.stack (F := Ideal) ws wn (ix2 (Fin.castAdd 64 k : Fin 128) j) = ws (ix2 k j) := by
  unfold Cert.KernelIdeal.HostFns.stack
  exact concatenate_pair_apply_left (t := ⟨2, ![128, 64]⟩) (s₁ := ⟨2, ![64, 64]⟩) (s₂ := ⟨2, ![64, 64]⟩) 0 ws wn _
    (ix2 (Fin.castAdd 64 k : Fin 128) j) rfl (ix2 k j) (fun b => match b with
    | ⟨0, _⟩ => rfl
    | ⟨1, _⟩ => rfl)

/-- The stacked matrix at row 64 + k is the second matrix at row k. -/
theorem stack_apply_right (ws wn : FVec Ideal SWt .f32) (k j : Fin 64) :
    Cert.KernelIdeal.HostFns.stack (F := Ideal) ws wn (ix2 (Fin.natAdd 64 k : Fin 128) j) = wn (ix2 k j) := by
  unfold Cert.KernelIdeal.HostFns.stack
  exact concatenate_pair_apply_right (t := ⟨2, ![128, 64]⟩) (s₁ := ⟨2, ![64, 64]⟩) (s₂ := ⟨2, ![64, 64]⟩) 0 ws wn _
    (ix2 (Fin.natAdd 64 k : Fin 128) j) rfl rfl (ix2 k j) (fun b hb => match b, hb with
    | ⟨0, _⟩, hb => absurd rfl hb
    | ⟨1, _⟩, _ => rfl) (by show k.val + 64 = 64 + k.val; omega)

/-- For a nonzero divisor, multiplying by the reciprocal is dividing: both are a · c⁻¹. -/
theorem mul_div_one (a c : EReal) (hc : c ≠ 0) : a * Ideal.div 1 c = Ideal.div a c := by
  unfold Ideal.div
  rw [if_neg hc, if_neg hc, one_mul]

/-- The clipped in-degree is at least one, so never zero. -/
theorem clipOne_ne_zero (d : FVec Ideal SN .f32) (r : SN.Idx) :
    Cert.ReferenceIdeal.RefFns.clipOne (F := Ideal) d r ≠ 0 := by
  have h1 : Cert.ReferenceIdeal.RefFns.clipOne (F := Ideal) d r = max (1 : EReal) (d r) := by
    unfold Cert.ReferenceIdeal.RefFns.clipOne
    rw [maximumf_apply, broadcastInDim_apply _ _ _ r ix0 (fun a => a.elim0)]
    show max (Ideal.ofBits .f32 0x3F800000#32) (d r) = _
    rw [one_word]
  rw [h1]
  have : (0 : EReal) < max 1 (d r) := lt_of_lt_of_le zero_lt_one (le_max_left _ _)
  exact ne_of_gt this

/-- The kernel's layer over the stacked weights and the reciprocal column is the reference's layer. -/
theorem layer_eq (x agg : FVec Ideal SNx64 .f32) (c : FVec Ideal SN .f32) (hc : ∀ r, c r ≠ 0)
    (ws wn : FVec Ideal SWt .f32) (b : FVec Ideal SB .f32) :
    Cert.SageSpec.layer 50000 x agg (Cert.KernelIdeal.HostFns.invColOf (F := Ideal) c)
        (Cert.KernelIdeal.HostFns.stack (F := Ideal) ws wn) b
      = Cert.ReferenceIdeal.RefFns.layer (F := Ideal) x agg c ws wn b := by
  funext i
  obtain ⟨r, j, rfl⟩ : ∃ r j, i = ix2 r j := ⟨i 0, i 1, eq_ix2 i⟩
  -- the left side, by definition: the two halves of the stacked contraction and the bias
  show ((∑ k : Fin 64, x (ix2 r k)
          * Cert.KernelIdeal.HostFns.stack (F := Ideal) ws wn (ix2 (Fin.castAdd 64 k : Fin 128) j))
      + (∑ k : Fin 64, (agg (ix2 r k) * Cert.KernelIdeal.HostFns.invColOf (F := Ideal) c (ix2 r (0 : Fin 1)))
          * Cert.KernelIdeal.HostFns.stack (F := Ideal) ws wn (ix2 (Fin.natAdd 64 k : Fin 128) j)))
      + b (ix1 j) = _
  unfold Cert.ReferenceIdeal.RefFns.layer
  rw [addf_apply, addf_apply, dot_apply, dot_apply, rowsOf_apply, invColOf_apply]
  congr 1; congr 1
  · -- the first half reads the self weights
    exact Finset.sum_congr rfl fun k _ => by rw [stack_apply_left]
  · -- the second half reads the neighbour weights, and a · (1/c) = a / c term by term
    refine Finset.sum_congr rfl fun k _ => ?_
    rw [stack_apply_right, mul_div_one _ _ (hc _)]
    show _ = Ideal.div (agg (ix2 r k)) (Cert.ReferenceIdeal.RefFns.colsOf (F := Ideal) c (ix2 r k)) * _
    rw [colsOf_apply]

/-- max(·, 0) entry by entry is the reference's ReLU. -/
theorem hidden_eq (x agg : FVec Ideal SNx64 .f32) (inv : FVec Ideal ⟨2, ![50000, 1]⟩ .f32)
    (wc : FVec Ideal ⟨2, ![128, 64]⟩ .f32) (b : FVec Ideal SB .f32) :
    Cert.SageSpec.hidden 50000 x agg inv wc b
      = Cert.ReferenceIdeal.RefFns.relu (F := Ideal) (Cert.SageSpec.layer 50000 x agg inv wc b) := by
  funext i
  show max (Cert.SageSpec.layer 50000 x agg inv wc b i) (Ideal.ofBits .f32 0x00000000#32) = _
  unfold Cert.ReferenceIdeal.RefFns.relu
  rw [maximumf_apply, broadcastInDim_apply _ _ _ i ix0 (fun a => a.elim0)]
  rfl

/-- The layer followed by the final contraction and bias is the reference's final linear map of the layer. -/
theorem out_eq (x agg : FVec Ideal SNx64 .f32) (inv : FVec Ideal ⟨2, ![50000, 1]⟩ .f32)
    (wc : FVec Ideal ⟨2, ![128, 64]⟩ .f32) (b : FVec Ideal SB .f32) (wf : FVec Ideal SWt .f32) (bf : FVec Ideal SB .f32) :
    Cert.SageSpec.out 50000 x agg inv wc b wf bf
      = Cert.ReferenceIdeal.RefFns.fc (F := Ideal) (Cert.SageSpec.layer 50000 x agg inv wc b) wf bf := by
  funext i
  obtain ⟨r, j, rfl⟩ : ∃ r j, i = ix2 r j := ⟨i 0, i 1, eq_ix2 i⟩
  unfold Cert.ReferenceIdeal.RefFns.fc
  rw [addf_apply, dot_apply, rowsOf_apply]
  rfl

end Cert.SageLaw

end
-- ==== Proof.Bridge.lean ====
/-
  The kernel's program and the reference compute one function of the arguments.

  With every node index and edge source in range the kernel program's filled lookups are plain lookups; its two
  pallas_calls compute, row block by row block, the layer over the stacked weights and the reciprocal in-degree
  column, which on the extended reals is the reference's x·W_self + (agg / deg)·W_neigh + b; the host functions
  between (lookups, scatter-sums, the clipped in-degree) are the same operations in both programs.
-/
import proofs.«406183_j91285234909245_3_alg».proof.Defs
import proofs.«406183_j91285234909245_3_alg».proof.Proof.Gen.Pre_finite_inputs
import proofs.«406183_j91285234909245_3_alg».proof.Proof.Gen.ReferenceIdeal.Run
import proofs.«406183_j91285234909245_3_alg».proof.Proof.Entry
import proofs.«406183_j91285234909245_3_alg».proof.Proof.Domain
import proofs.«406183_j91285234909245_3_alg».proof.Proof.LayerLaw
import proofs.«406183_j91285234909245_3_alg».proof.Proof.RefFns

set_option maxRecDepth 16384

noncomputable section

namespace Cert.Bridge

open Idealize.ShloMosaic Idealize.ShloMosaic.TcCoe Idealize.SL.Sem

/-! ## The host functions of the two programs are the same functions -/

theorem gatherN_eq (x : FVec Ideal Cert.KernelIdeal.S50000x64 .f32) (ids : IVec Cert.KernelIdeal.S50000 32) :
    Cert.KernelIdeal.HostFns.gatherN (F := Ideal) x ids = Cert.ReferenceIdeal.RefFns.gatherN (F := Ideal) x ids := rfl

theorem gatherE_eq (h : FVec Ideal Cert.KernelIdeal.S50000x64 .f32) (src : IVec Cert.KernelIdeal.S800000 32) :
    Cert.KernelIdeal.HostFns.gatherE (F := Ideal) h src = Cert.ReferenceIdeal.RefFns.gatherE (F := Ideal) h src := rfl

theorem aggregate_eq (y : FVec Ideal Cert.KernelIdeal.S800000x64 .f32) (dst : IVec Cert.KernelIdeal.S800000 32) :
    Cert.KernelIdeal.HostFns.aggregate (F := Ideal) y dst = Cert.ReferenceIdeal.RefFns.aggregate (F := Ideal) y dst := rfl

theorem invCol_eq (dst : IVec Cert.KernelIdeal.S800000 32) :
    Cert.KernelIdeal.HostFns.invCol (F := Ideal) dst
      = Cert.KernelIdeal.HostFns.invColOf (F := Ideal)
          (Cert.ReferenceIdeal.RefFns.clipOne (F := Ideal) (Cert.ReferenceIdeal.RefFns.degree (F := Ideal) dst)) := rfl

/-! ## The kernel program's result is the reference's function of the arguments -/

theorem kernel_result (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W10 m ρ c (Proc.devRef .tc Cert.KernelIdeal.main_v20)
      = Cert.ReferenceIdeal.RefFns.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  obtain ⟨hN, hE⟩ := Cert.KernelIdeal.Domain.ids_in_range m hpre c
  rw [Cert.KernelIdeal.Entry.result_value, Cert.KernelIdeal.Entry.hid_eq]
  simp only [Cert.KernelIdeal.Entry.rows, Cert.KernelIdeal.Domain.takeN_eq _ _ hN, Cert.KernelIdeal.Domain.takeE_eq _ _ hE]
  rw [Cert.SageLaw.out_eq, Cert.SageLaw.hidden_eq, invCol_eq]
  rw [Cert.SageLaw.layer_eq _ _ _ (Cert.SageLaw.clipOne_ne_zero _), Cert.SageLaw.layer_eq _ _ _ (Cert.SageLaw.clipOne_ne_zero _)]
  simp only [gatherN_eq, gatherE_eq, aggregate_eq]
  rfl

end Cert.Bridge

end
-- ==== Proof.lean ====
/-
  The certificate: the kernel's program (two pallas_calls — a mean-aggregating graph layer with ReLU, then a second
  such layer fused with a final linear map — among host lookups and scatter-sums) against its jnp reference, over
  the extended reals, for finite float inputs and node / edge-source indices in 0 … 49999.

  Frames: the two kernel programs' by the generated frame certificates; the reference's by its generated run.
  Nothing was rewritten by the ideal pass, so `preserves` has nothing to state. The value claim: the kernel program's
  result buffer ends at the reference's composed function of the arguments (Bridge.lean), which is what the reference's
  run leaves in its own result buffer.
-/
import proofs.«406183_j91285234909245_3_alg».proof.Defs
import proofs.«406183_j91285234909245_3_alg».proof.Proof.Gen.Kernel
import proofs.«406183_j91285234909245_3_alg».proof.Proof.Gen.Kernel.Skeleton
import proofs.«406183_j91285234909245_3_alg».proof.Proof.Gen.Kernel.Launch
import proofs.«406183_j91285234909245_3_alg».proof.Proof.Gen.Kernel.Points
import proofs.«406183_j91285234909245_3_alg».proof.Proof.Gen.Kernel.Frame
import proofs.«406183_j91285234909245_3_alg».proof.Proof.Gen.KernelIdeal
import proofs.«406183_j91285234909245_3_alg».proof.Proof.Gen.KernelIdeal.Skeleton
import proofs.«406183_j91285234909245_3_alg».proof.Proof.Gen.KernelIdeal.Launch
import proofs.«406183_j91285234909245_3_alg».proof.Proof.Gen.KernelIdeal.Points
import proofs.«406183_j91285234909245_3_alg».proof.Proof.Gen.KernelIdeal.Frame
import proofs.«406183_j91285234909245_3_alg».proof.Proof.Gen.ReferenceIdeal
import proofs.«406183_j91285234909245_3_alg».proof.Proof.Gen.ReferenceIdeal.Run
import proofs.«406183_j91285234909245_3_alg».proof.Proof.Gen.ReferenceIdeal.Read
import proofs.«406183_j91285234909245_3_alg».proof.Proof.Gen.Pre_finite_inputs
import proofs.«406183_j91285234909245_3_alg».proof.Proof.KernelRun
import proofs.«406183_j91285234909245_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs run; the kernel program's result is the reference's function of arguments that agree. -/
theorem algebraic : Cert.algebraic_KernelIdeal_ReferenceIdeal := by
  intro m ρ m' ρ' hpre hagree
  refine ⟨fun c => Cert.KernelIdeal.Gen.W10 m ρ c (Proc.devRef .tc Cert.KernelIdeal.main_v20),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.RefFns.res_eq, e0, e1, e2, e3, e4, e5, e6, e7, e8, e9, e10, e11]
  exact (Cert.Bridge.kernel_result m ρ hpre c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
